-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192 : Shape := ⟨2, ![4, 8192]⟩
abbrev S4x512x3 : Shape := ⟨3, ![4, 512, 3]⟩
abbrev S4x512 : Shape := ⟨2, ![4, 512]⟩
abbrev S4x512x512 : Shape := ⟨3, ![4, 512, 512]⟩
abbrev S4x512x1 : Shape := ⟨3, ![4, 512, 1]⟩
abbrev S4x1x512 : Shape := ⟨3, ![4, 1, 512]⟩
abbrev S_ : Shape := ⟨0, ![]⟩

abbrev nBuf : Space → Nat
  | .hbm => 13
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512x3, .f32⟩
  | .local _ .vmem, ⟨8, _⟩ => ⟨S4x512x3, .f32⟩
  | .local _ .vmem, ⟨9, _⟩ => ⟨S4x512x3, .f32⟩
  | .local _ .vmem, ⟨10, _⟩ => ⟨S4x512x3, .f32⟩
  | .local _ .vmem, ⟨11, _⟩ => ⟨S4x512, .f32⟩
  | .local _ .vmem, ⟨12, _⟩ => ⟨S4x512, .f32⟩
  | .local _ .vmem, ⟨13, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_15 : BitVec 32 := 0#32
  let v31 : BitVec 1 := Scalar.cmpi .ne v30 c0_i32_15
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_15 : BitVec 32 := 0#32
  let v31 : BitVec 1 := Scalar.cmpi .ne v30 c0_i32_15
  v31

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x512x3_S4x512x3_0_0_0 : ∀ a, (![0, 0, 0] : Fin 3 → Nat) a + S4x512x3.size a ≤ S4x512x3.size a
  h_S4x512x3 : 0 < S4x512x3.numel
  reduces_S4x512x3_S4x512 : S4x512x3.Reduces [2] S4x512
  bitsLt_bf16_f32 : FTy.bits .bf16 < FTy.bits .f32
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  reducesTo_S4x8192_S_d0_1 : S4x8192.ReducesTo [0, 1] S_
  h_S_ : 0 < S_.numel
  dot_S4x512x3_S4x512x3_S4x512x512_2_2_1_1_0_0_wf : DotDims.WF S4x512x3 S4x512x3 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)

variable [Facts₀]

def dot_S4x512x3_S4x512x3_S4x512x512_2_2_1_1_0_0 : DotDims S4x512x3 S4x512x3 S4x512x512 where
  lhsContracting := [2]
  rhsContracting := [2]
  lhsNonContracting := [1]
  rhsNonContracting := [1]
  lhsBatch := [0]
  rhsBatch := [0]
  wf := dot_S4x512x3_S4x512x3_S4x512x512_2_2_1_1_0_0_wf

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.TileRun0Bits.lean ====
/-
  One call of the tile kernel in the first pass (nearest candidate of every query), on whole staging buffers.

  The kernel keeps a running minimum `acc` in a scratch buffer.  At a grid point `(i, j)` it is handed a tile
  `a` of 512 query points and a tile `b` of 512 candidate points (4 batches, 3 coordinates each) and does

      if j = 0 then acc := +∞
      acc := min acc (tileMin a b)          -- tileMin a b [β, r] = min over the 512 candidates of the distance
      if j = 15 then out := acc

  so the call has three control cases: the row's first column (`j = 0`: the scratch is reset, then updated),
  a middle column (the scratch is updated), and the row's last column (`j = 15`: updated, then copied to the
  output tile).  No point is both first and last (the row has 16 columns).  In every case the two input tiles
  are read and handed back unchanged; the output tile is touched only in the last case.

  What the scratch holds afterwards is the store's payload `step a b s`, a pure function of the two tiles and of
  what the scratch held before (`s`); on a first column `s` is the constant tile `top` (every entry +∞).
-/
import proofs.«145489_j16003048145308_1_alg».proof.Proof.Gen.Kernel.Launch
import proofs.«145489_j16003048145308_1_alg».proof.Proof.Gen.Kernel.Skeleton
import proofs.«145489_j16003048145308_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Pass0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two column tests -/

/-- "This is the row's first column": the kernel's own scalar chain for `j = 0`. -/
abbrev isFirst (i : grid0.Coords) : Prop :=
  (Scalar.cmpi .ne (Scalar.extui (Scalar.cmpi .eq (BitVec.ofNat 32 (i 1).val) 0#32)) 0#32) = 1#1
/-- "This is the row's last column": the kernel's own scalar chain for `j = 15`. -/
abbrev isLast (i : grid0.Coords) : Prop := k0_cond2 i = 1#1

/-- Over the 256 grid points in row-major order the first column is the points `≡ 0 (mod 16)`, -/
theorem isFirst_iff : ∀ t : Fin cfg0.N, isFirst (grid0.coords t) ↔ t.val % 16 = 0 :=
  (by decide +kernel : ∀ t : Fin grid0.N, isFirst (grid0.coords t) ↔ t.val % 16 = 0)
/-- and the last column the points `≡ 15 (mod 16)`. -/
theorem isLast_iff : ∀ t : Fin cfg0.N, isLast (grid0.coords t) ↔ t.val % 16 = 15 :=
  (by decide +kernel : ∀ t : Fin grid0.N, isLast (grid0.coords t) ↔ t.val % 16 = 15)

/-! ## The scratch update as a pure function -/

/-- The constant tile the scratch is reset to: every entry `+∞`. -/
abbrev top : Vec F S4x512 .f32 := k0_pay1 (F := F)
/-- What the scratch holds after the update: entrywise the minimum of what it held (`s`) and the tile minimum of
    the distances between the query tile `a` and the candidate tile `b`. -/
abbrev step (a b : Vec F S4x512x3 .f32) (s : Vec F S4x512 .f32) : Vec F S4x512 .f32 := k0_pay2 a b s

theorem zero2 : (![0, 0] : Fin 2 → Nat) = fun _ => 0 := by funext a; fin_cases a <;> rfl
theorem zero3 : (![0, 0, 0] : Fin 3 → Nat) = fun _ => 0 := by funext a; fin_cases a <;> rfl

/-- After a store through the whole-shape rectangle (made last), a buffer reads back as that store's payload,
    whatever was stored before and whatever the buffer held. -/
theorem read_store_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a)
    (p : S.Idx → Elt F e) (L : List (View.Piece (Elt F) S e)) :
    v.read (Elt F) (v.writes (Elt F) f ((⟨Rect.unit off S.size inb, p⟩ : View.Piece (Elt F) S e) :: L)) = p := by
  rw [View.read_writes_eq_canon v f _ (fun y => ⟨⟨Rect.unit off S.size inb, p⟩, List.mem_cons_self, View.mem_set_unit_zero h inb y⟩)]
  exact View.canon_cons_unit_zero h inb p L

/-! ## The three control cases -/

set_option maxHeartbeats 1000000 in
/-- A middle column: the scratch goes from `s` to `step a b s`; the output tile is handed back as found. -/
theorem run_middle (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hf : ¬isFirst i) (hl : ¬isLast i)
    (a b : Vec F S4x512x3 .f32) (o s : Vec F S4x512 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare o ∗ owns (c : Thread nD τ) arg5 fullShare (step a b s)) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hf | exact hl)
  sl_step
  iapply Hk
  isplitl [H0]; · iexists _; isplitr; · ipureintro; exact hf0
                  iexact H0
  isplitl [H1]; · iexists _; isplitr; · ipureintro; exact hf1
                  iexact H1
  isplitl [HO]; · iexists _; isplitr; · ipureintro; exact hfo
                  iexact HO
  iexists _; isplitr
  swap; · iexact HS
  ipureintro
  sl_unfold_words
  rw [read_store_whole _ _ zero2]
  simp only [View.readAt_eq_ld, harg2.read_unread, harg3.read_unread, harg5.read_unread, View.ld_unit_zero (S := S4x512x3) zero3, View.ld_unit_zero (S := S4x512) zero2]

set_option maxHeartbeats 1000000 in
/-- A first column: whatever the scratch held, it ends at `step a b top`; the output tile is handed back as found. -/
theorem run_first (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hf : isFirst i) (hl : ¬isLast i)
    (a b : Vec F S4x512x3 .f32) (o : Vec F S4x512 .f32) (E : Set ℕ) (K : PUnit → sProp 𝕄) :
    iprop(owns (c : Thread nD τ) arg2 fullShare a ∗ owns (c : Thread nD τ) arg3 fullShare b ∗ owns (c : Thread nD τ) arg4 fullShare o ∗ (∃ d, owns (c : Thread nD τ) arg5 fullShare d)
        ∗ (iprop(owns (c : Thread nD τ) arg2 fullShare a ∗ owns (c : Thread nD τ) arg3 fullShare b ∗ owns (c : Thread nD τ) arg4 fullShare o ∗ owns (c : Thread nD τ) arg5 fullShare (step a b top)) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%fo, %hfo, HO⟩, ⟨%ds, %fs, -, HS⟩, Hk⟩
  obtain rfl := harg2.eq_unread hf0; obtain rfl := harg3.eq_unread hf1; obtain rfl := harg4.eq_unread hfo
  sl_exec (disch := first | exact hf | exact hl)
  sl_step
  iapply Hk
  isplitl [H0]; · iexists _; isplitr; · ipureintro; exact hf0
                  iexact H0
  isplitl [H1]; · iexists _; isplitr; · ipureintro; exact hf1
                  iexact H1
  isplitl [HO]; · iexists _; isplitr; · ipureintro; exact hfo
                  iexact HO
  iexists _; isplitr
  swap; · iexact HS
  ipureintro
  sl_unfold_words
  rw [read_store_whole _ _ zero2]
  simp only [View.readAt_eq_ld, harg2.read_unread, harg3.read_unread, View.ld_unit_zero (S := S4x512x3) zero3, View.ld_unit_zero (S := S4x512) zero2, View.readCov_unit_zero (S := S4x512) _ zero2]

set_option maxHeartbeats 1000000 in
/-- A last column: the scratch goes from `s` to `step a b s`, and the output tile, whatever it held, ends at the same. -/
theorem run_last (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hf : ¬isFirst i) (hl : isLast i)
    (a b : Vec F S4x512x3 .f32) (s : Vec F S4x512 .f32) (E : Set ℕ) (K : PUnit → sProp 𝕄) :
    iprop(owns (c : Thread nD τ) arg2 fullShare a ∗ owns (c : Thread nD τ) arg3 fullShare b ∗ (∃ d, owns (c : Thread nD τ) arg4 fullShare d) ∗ owns (c : Thread nD τ) arg5 fullShare s
        ∗ (iprop(owns (c : Thread nD τ) arg2 fullShare a ∗ owns (c : Thread nD τ) arg3 fullShare b ∗ owns (c : Thread nD τ) arg4 fullShare (step a b s) ∗ owns (c : Thread nD τ) arg5 fullShare (step a b s)) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%do_, %fo, -, HO⟩, ⟨%fs, %hfs, HS⟩, Hk⟩
  obtain rfl := harg2.eq_unread hf0; obtain rfl := harg3.eq_unread hf1; obtain rfl := harg5.eq_unread hfs
  sl_exec (disch := first | exact hf | exact hl)
  sl_step
  iapply Hk
  isplitl [H0]; · iexists _; isplitr; · ipureintro; exact hf0
                  iexact H0
  isplitl [H1]; · iexists _; isplitr; · ipureintro; exact hf1
                  iexact H1
  isplitl [HO]
  · iexists _; isplitr
    swap; · iexact HO
    ipureintro
    sl_unfold_words
    rw [read_store_whole _ _ zero2]
    simp only [View.readAt_eq_ld, harg2.read_unread, harg3.read_unread, harg5.read_unread, View.ld_unit_zero (S := S4x512x3) zero3, View.ld_unit_zero (S := S4x512) zero2, View.readCov_unit_zero (S := S4x512) _ zero2]
  iexists _; isplitr
  swap; · iexact HS
  ipureintro
  sl_unfold_words
  rw [read_store_whole _ _ zero2]
  simp only [View.readAt_eq_ld, harg2.read_unread, harg3.read_unread, harg5.read_unread, View.ld_unit_zero (S := S4x512x3) zero3, View.ld_unit_zero (S := S4x512) zero2]

end Cert.Kernel.Pass0

end
-- ==== Proof.ScratchSplit0Bits.lean ====
/-
  The first pass's scratch among the core's scoped buffers.

  While the first pass runs, the scoped buffers that are none of its staging buffers are its own scratch (the
  running minimum) and the seven buffers of the second pass (its six staging buffers and its scratch).  The
  region's invariant holds all eight at unspecified contents; this file
  splits it into "the scratch, at some contents" and "the rest" (the other seven buffers and the generator
  register), so that the running minimum can be tracked through the scratch alone.
-/
import proofs.«145489_j16003048145308_1_alg».proof.Proof.TileRun0Bits
import Idealize.ShloMosaic.Lib.Pipeline.Frame

set_option maxRecDepth 16384

noncomputable section

namespace Cert.Kernel.Pass0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first pass's scratch buffer, whole. -/
abbrev scM : Memref sig .tc .vmem S4x512 .f32 := Memref.whole cc0_scratch0

/-- The scoped buffers the first pass never touches (the second pass's staging buffers and scratch), each at
    some contents, and the generator register at some state. -/
def rest (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))
    ∗ (∃ r, prngReg c r))

/-- The region's invariant gives the scratch at some contents beside the rest, -/
theorem PhiA_open (c : Dev nD) :
    (Pipeline.ΦA spec0 c : sProp 𝕄) ⊢ iprop((∃ d, owns (c : Thread nD τ) scM fullShare d) ∗ rest c) := by
  unfold Pipeline.ΦA rest; rw [scopedRest0_eq]; simp only [scM, owns_whole]
  iintro ⟨⟨HS, H1, H2, H3, H4, H5, H6, H7⟩, Hg⟩
  isplitl [HS]; · iexact HS
  isplitr [Hg]
  · isplitl [H1]; · iexact H1
    isplitl [H2]; · iexact H2
    isplitl [H3]; · iexact H3
    isplitl [H4]; · iexact H4
    isplitl [H5]; · iexact H5
    isplitl [H6]; · iexact H6
    iexact H7
  iexact Hg

/-- and is made of them. -/
theorem PhiA_close (c : Dev nD) :
    iprop((∃ d, owns (c : Thread nD τ) scM fullShare d) ∗ rest c) ⊢ (Pipeline.ΦA spec0 c : sProp 𝕄) := by
  unfold Pipeline.ΦA rest; rw [scopedRest0_eq]; simp only [scM, owns_whole]
  iintro ⟨HS, ⟨H1, H2, H3, H4, H5, H6, H7⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-- So the two are one assertion. -/
theorem PhiA_split (c : Dev nD) :
    (Pipeline.ΦA spec0 c : sProp 𝕄) = iprop((∃ d, owns (c : Thread nD τ) scM fullShare d) ∗ rest c) :=
  BI.equiv_iff.mp ⟨PhiA_open c, PhiA_close c⟩

end Cert.Kernel.Pass0

end
-- ==== Proof.Carry0Bits.lean ====
/-
  The first pass over its 16 × 16 grid: what the scratch and the output tile hold after every point.

  The grid is walked row by row (point `t` is row `t / 16`, column `t % 16`).  Row `i` holds the query tile `i`
  fixed and runs over the 16 candidate tiles.  The scratch after point `t` is the running minimum `carry t`:

      carry t = step (a-tile at t) (b-tile at t) top              if t is a row's first column
      carry t = step (a-tile at t) (b-tile at t) (carry (t-1))     otherwise

  and at a row's last column the output tile is set to `carry t` and written back; at every other column the
  output tile is left as found and not written back.  This file states that as the pipeline's proof data and
  proves the body obligation at every grid point from the three control cases of the kernel call.
-/
import proofs.«145489_j16003048145308_1_alg».proof.Proof.ScratchSplit0Bits
import Idealize.ShloMosaic.Lib.Pipeline.FrameBody

set_option maxRecDepth 16384

noncomputable section

namespace Cert.Kernel.Pass0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- Window `w`'s block at point `t`, read off its array as the pass finds it (`V`). -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query tile is in its staging buffer at every point of its row, although it is fetched only at the row's
    first column: the block index does not move along a row. -/
theorem before_a_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- The candidate tile is fetched at every point. -/
theorem before_b_of {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-! ## The running minimum -/

/-- What the scratch holds after the point at position `n`. -/
def carry (c : Dev nD) : (n : ℕ) → n < cfg0.N → Vec F S4x512 .f32
  | 0, hn => step (tile V c 0 ⟨0, hn⟩) (tile V c 1 ⟨0, hn⟩) top
  | n + 1, hn =>
    if (n + 1) % 16 = 0 then step (tile V c 0 ⟨n + 1, hn⟩) (tile V c 1 ⟨n + 1, hn⟩) top
    else step (tile V c 0 ⟨n + 1, hn⟩) (tile V c 1 ⟨n + 1, hn⟩) (carry c n (Nat.lt_of_succ_lt hn))

/-- At a row's first column the minimum restarts from `top`. -/
theorem carry_first (c : Dev nD) (t : Fin cfg0.N) (h : t.val % 16 = 0) :
    carry V c t.val t.isLt = step (tile V c 0 t) (tile V c 1 t) top := by
  obtain ⟨n, hn⟩ := t
  cases n with
  | zero => rfl
  | succ n => exact if_pos h

/-- At any other column it continues from the point before. -/
theorem carry_next (c : Dev nD) (t : Fin cfg0.N) (h : ¬t.val % 16 = 0) :
    carry V c t.val t.isLt = step (tile V c 0 t) (tile V c 1 t) (carry V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- Before the first point the region's own invariant (every scoped buffer at anything); after the point at
    position `n` the scratch at `carry n` beside the rest. -/
def inv (c : Dev nD) : (n : ℕ) → n ≤ cfg0.N → sProp 𝕄
  | 0, _ => Pipeline.ΦA spec0 c
  | n + 1, hn => iprop(owns (c : Thread nD τ) scM fullShare (carry V c n hn) ∗ rest c)

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(owns (c : Thread nD τ) scM fullShare (carry V c n hn) ∗ rest c) := rfl
theorem inv_pos (c : Dev nD) (n : ℕ) (h : n ≤ cfg0.N) (hz : n ≠ 0) :
    inv V c n h = iprop(owns (c : Thread nD τ) scM fullShare (carry V c (n - 1) (by omega)) ∗ rest c) := by
  cases n with
  | zero => exact absurd rfl hz
  | succ n => rfl

/-! ## The proof data -/

/-- The pass's proof data on core `c`: its arrays as it finds them; after the body at point `t` the two input
    tiles unchanged and the output tile at the running minimum (consulted only at a row's last column); the
    invariant above; nothing owed; full shares. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => carry V c t.val t.isLt
  Φ t := inv V c t.val (Nat.le_of_lt_succ t.isLt)
  q _ := fullShare
  owed _ := 0

theorem A_eq (c : Dev nD) (w : Fin cfg0.W) : (dat V c).A w = V c (Pipeline.arrRef spec0 w) := by
  dsimp only [dat]
theorem inv_castSucc (c : Dev nD) (t : Fin cfg0.N) :
    (dat V c).Φ t.castSucc = inv V c t.val (Nat.le_of_lt t.isLt) := by
  dsimp only [dat]; simp only [Fin.coe_castSucc]
theorem after_a (c : Dev nD) (t : Fin cfg0.N) : (dat V c).after 0 t = tile V c 0 t := by dsimp only [dat]
theorem after_b (c : Dev nD) (t : Fin cfg0.N) : (dat V c).after 1 t = tile V c 1 t := by dsimp only [dat]
theorem after_out (c : Dev nD) (t : Fin cfg0.N) : (dat V c).after 2 t = carry V c t.val t.isLt := by dsimp only [dat]
theorem before_a (c : Dev nD) (t : Fin cfg0.N) (d) : (dat V c).before 0 t d = tile V c 0 t :=
  before_a_of V (dat V c) (A_eq V c 0) (after_a V c) t d
theorem before_b (c : Dev nD) (t : Fin cfg0.N) (d) : (dat V c).before 1 t d = tile V c 1 t :=
  before_b_of V (dat V c) (A_eq V c 1) (after_b V c) t d

/-! ## Where the windows are idle -/

theorem live_a : ∀ t : Fin cfg0.N, cfg0.idle 0 (grid0.coords t) = false := by decide +kernel
theorem live_b : ∀ t : Fin cfg0.N, cfg0.idle 1 (grid0.coords t) = false := by decide +kernel
/-- Off a row's last column the output tile is idle and not written back; -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- on it, it is stored. -/
theorem live_out : ∀ t : Fin cfg0.N, isLast (grid0.coords t) → cfg0.idle 2 (grid0.coords t) = false := by decide +kernel

/-! ## The body obligation -/

/-- Each window's current staging memref at point `t`, as the pipeline passes it to the kernel. -/
abbrev ms_a (t : Fin cfg0.N) : Memref sig .tc .vmem S4x512x3 .f32 := win0_0.stage (cfg0.slots t 0)
abbrev ms_b (t : Fin cfg0.N) : Memref sig .tc .vmem S4x512x3 .f32 := win0_1.stage (cfg0.slots t 1)
abbrev ms_out (t : Fin cfg0.N) : Memref sig .tc .vmem S4x512 .f32 := win0_2.stage (cfg0.slots t 2)

def bodyPre (c : Dev nD) (t : Fin cfg0.N) : sProp 𝕄 :=
  iprop((dat V c).Φ t.castSucc ∗ (dat V c).owesAt () t.castSucc
    ∗ (∃ d, owns (c : Thread nD τ) (ms_a t) fullShare ((dat V c).before 0 t d))
    ∗ (∃ d, owns (c : Thread nD τ) (ms_b t) fullShare ((dat V c).before 1 t d))
    ∗ (∃ d, owns (c : Thread nD τ) (ms_out t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the column decides the control case; the invariant hands over the scratch (at anything
    before the first point, at the point before's running minimum afterwards) and takes it back at this point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_a, before_b]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms_a t) fullShare ((dat V c).after 0 t) from by
    unfold Dat.leavesExact; rw [live_a t], after_a]
  rw [show (dat V c).leavesExact 1 t = owns (c : Thread nD τ) (ms_b t) fullShare ((dat V c).after 1 t) from by
    unfold Dat.leavesExact; rw [live_b t], after_b]
  have hN : t.val < 256 := lt_of_lt_of_eq t.isLt (show cfg0.N = 256 from N_0)
  rw [inv_castSucc V c t]
  by_cases hf : t.val % 16 = 0
  · have hl : ¬t.val % 16 = 15 := by omega
    have hnl : ¬isLast (grid0.coords t) := fun h => hl ((isLast_iff t).mp h)
    rw [Dat.leavesExact_idle (dat V c) 2 t (idle_out t hnl) (noFlush_out t hnl), carry_first V c t hf]
    by_cases hz : t.val = 0
    · rw [inv_zero V c _ _ hz, PhiA_split]
      iintro ⟨⟨HS, Hr⟩, Ho, ⟨%d0, H0⟩, ⟨%d1, H1⟩, ⟨%d2, H2⟩⟩
      iapply (run_first c (grid0.coords t) _ _ _ _ _ _ _ _ ((isFirst_iff t).mpr hf) hnl (tile V c 0 t) (tile V c 1 t) ((dat V c).before 2 t d2) Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2
    · rw [inv_pos V c _ _ hz]
      iintro ⟨⟨HS, Hr⟩, Ho, ⟨%d0, H0⟩, ⟨%d1, H1⟩, ⟨%d2, H2⟩⟩
      iapply (run_first c (grid0.coords t) _ _ _ _ _ _ _ _ ((isFirst_iff t).mpr hf) hnl (tile V c 0 t) (tile V c 1 t) ((dat V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2
  · have hz : t.val ≠ 0 := fun h => hf (by rw [h])
    have hnf : ¬isFirst (grid0.coords t) := fun h => hf ((isFirst_iff t).mp h)
    rw [inv_pos V c _ _ hz, carry_next V c t hf]
    by_cases hl : t.val % 16 = 15
    · have hil : isLast (grid0.coords t) := (isLast_iff t).mpr hl
      rw [show (dat V c).leavesExact 2 t = owns (c : Thread nD τ) (ms_out t) fullShare ((dat V c).after 2 t) from by
        unfold Dat.leavesExact; rw [live_out t hil], after_out, carry_next V c t hf]
      iintro ⟨⟨HS, Hr⟩, Ho, ⟨%d0, H0⟩, ⟨%d1, H1⟩, ⟨%d2, H2⟩⟩
      iapply (run_last c (grid0.coords t) _ _ _ _ _ _ _ _ hnf hil (tile V c 0 t) (tile V c 1 t) (carry V c (t.val - 1) _) Set.univ _)
      isplitl [H0]; · iexact H0
      isplitl [H1]; · iexact H1
      isplitl [H2]; · iexists _; iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexact H2
    · have hnl : ¬isLast (grid0.coords t) := fun h => hl ((isLast_iff t).mp h)
      rw [Dat.leavesExact_idle (dat V c) 2 t (idle_out t hnl) (noFlush_out t hnl)]
      iintro ⟨⟨HS, Hr⟩, Ho, ⟨%d0, H0⟩, ⟨%d1, H1⟩, ⟨%d2, H2⟩⟩
      iapply (run_middle c (grid0.coords t) _ _ _ _ _ _ _ _ hnf hnl (tile V c 0 t) (tile V c 1 t) ((dat V c).before 2 t d2) (carry V c (t.val - 1) _) Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = inv V c 0 (Nat.zero_le _) from rfl, inv_zero V c 0 _ rfl]

/-- After the last point the invariant gives the region's own back: the scratch's contents are forgotten. -/
theorem hout (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 256 := N_0; omega), PhiA_split]
  iintro ⟨HS, Hr⟩
  isplitl [HS]; · iexists _; iexact HS
  iexact Hr

end Cert.Kernel.Pass0

end
-- ==== Proof.TileRun1Bits.lean ====
/-
  One call of the tile kernel in the second pass (nearest candidate of every query), on whole staging buffers.

  The kernel keeps a running minimum `acc` in a scratch buffer.  At a grid point `(i, j)` it is handed a tile
  `a` of 512 query points and a tile `b` of 512 candidate points (4 batches, 3 coordinates each) and does

      if j = 0 then acc := +∞
      acc := min acc (tileMin a b)          -- tileMin a b [β, r] = min over the 512 candidates of the distance
      if j = 15 then out := acc

  so the call has three control cases: the row's first column (`j = 0`: the scratch is reset, then updated),
  a middle column (the scratch is updated), and the row's last column (`j = 15`: updated, then copied to the
  output tile).  No point is both first and last (the row has 16 columns).  In every case the two input tiles
  are read and handed back unchanged; the output tile is touched only in the last case.

  What the scratch holds afterwards is the store's payload `step a b s`, a pure function of the two tiles and of
  what the scratch held before (`s`); on a first column `s` is the constant tile `top` (every entry +∞).
-/
import proofs.«145489_j16003048145308_1_alg».proof.Proof.Gen.Kernel.Launch
import proofs.«145489_j16003048145308_1_alg».proof.Proof.Gen.Kernel.Skeleton
import proofs.«145489_j16003048145308_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two column tests -/

/-- "This is the row's first column": the kernel's own scalar chain for `j = 0`. -/
abbrev isFirst (i : grid1.Coords) : Prop :=
  (Scalar.cmpi .ne (Scalar.extui (Scalar.cmpi .eq (BitVec.ofNat 32 (i 1).val) 0#32)) 0#32) = 1#1
/-- "This is the row's last column": the kernel's own scalar chain for `j = 15`. -/
abbrev isLast (i : grid1.Coords) : Prop := k1_cond2 i = 1#1

/-- Over the 256 grid points in row-major order the first column is the points `≡ 0 (mod 16)`, -/
theorem isFirst_iff : ∀ t : Fin cfg1.N, isFirst (grid1.coords t) ↔ t.val % 16 = 0 :=
  (by decide +kernel : ∀ t : Fin grid1.N, isFirst (grid1.coords t) ↔ t.val % 16 = 0)
/-- and the last column the points `≡ 15 (mod 16)`. -/
theorem isLast_iff : ∀ t : Fin cfg1.N, isLast (grid1.coords t) ↔ t.val % 16 = 15 :=
  (by decide +kernel : ∀ t : Fin grid1.N, isLast (grid1.coords t) ↔ t.val % 16 = 15)

/-! ## The scratch update as a pure function -/

/-- The constant tile the scratch is reset to: every entry `+∞`. -/
abbrev top : Vec F S4x512 .f32 := k1_pay1 (F := F)
/-- What the scratch holds after the update: entrywise the minimum of what it held (`s`) and the tile minimum of
    the distances between the query tile `a` and the candidate tile `b`. -/
abbrev step (a b : Vec F S4x512x3 .f32) (s : Vec F S4x512 .f32) : Vec F S4x512 .f32 := k1_pay2 a b s

theorem zero2 : (![0, 0] : Fin 2 → Nat) = fun _ => 0 := by funext a; fin_cases a <;> rfl
theorem zero3 : (![0, 0, 0] : Fin 3 → Nat) = fun _ => 0 := by funext a; fin_cases a <;> rfl

/-- After a store through the whole-shape rectangle (made last), a buffer reads back as that store's payload,
    whatever was stored before and whatever the buffer held. -/
theorem read_store_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a)
    (p : S.Idx → Elt F e) (L : List (View.Piece (Elt F) S e)) :
    v.read (Elt F) (v.writes (Elt F) f ((⟨Rect.unit off S.size inb, p⟩ : View.Piece (Elt F) S e) :: L)) = p := by
  rw [View.read_writes_eq_canon v f _ (fun y => ⟨⟨Rect.unit off S.size inb, p⟩, List.mem_cons_self, View.mem_set_unit_zero h inb y⟩)]
  exact View.canon_cons_unit_zero h inb p L

/-! ## The three control cases -/

set_option maxHeartbeats 1000000 in
/-- A middle column: the scratch goes from `s` to `step a b s`; the output tile is handed back as found. -/
theorem run_middle (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hf : ¬isFirst i) (hl : ¬isLast i)
    (a b : Vec F S4x512x3 .f32) (o s : Vec F S4x512 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare o ∗ owns (c : Thread nD τ) arg5 fullShare (step a b s)) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hf | exact hl)
  sl_step
  iapply Hk
  isplitl [H0]; · iexists _; isplitr; · ipureintro; exact hf0
                  iexact H0
  isplitl [H1]; · iexists _; isplitr; · ipureintro; exact hf1
                  iexact H1
  isplitl [HO]; · iexists _; isplitr; · ipureintro; exact hfo
                  iexact HO
  iexists _; isplitr
  swap; · iexact HS
  ipureintro
  sl_unfold_words
  rw [read_store_whole _ _ zero2]
  simp only [View.readAt_eq_ld, harg2.read_unread, harg3.read_unread, harg5.read_unread, View.ld_unit_zero (S := S4x512x3) zero3, View.ld_unit_zero (S := S4x512) zero2]

set_option maxHeartbeats 1000000 in
/-- A first column: whatever the scratch held, it ends at `step a b top`; the output tile is handed back as found. -/
theorem run_first (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hf : isFirst i) (hl : ¬isLast i)
    (a b : Vec F S4x512x3 .f32) (o : Vec F S4x512 .f32) (E : Set ℕ) (K : PUnit → sProp 𝕄) :
    iprop(owns (c : Thread nD τ) arg2 fullShare a ∗ owns (c : Thread nD τ) arg3 fullShare b ∗ owns (c : Thread nD τ) arg4 fullShare o ∗ (∃ d, owns (c : Thread nD τ) arg5 fullShare d)
        ∗ (iprop(owns (c : Thread nD τ) arg2 fullShare a ∗ owns (c : Thread nD τ) arg3 fullShare b ∗ owns (c : Thread nD τ) arg4 fullShare o ∗ owns (c : Thread nD τ) arg5 fullShare (step a b top)) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%fo, %hfo, HO⟩, ⟨%ds, %fs, -, HS⟩, Hk⟩
  obtain rfl := harg2.eq_unread hf0; obtain rfl := harg3.eq_unread hf1; obtain rfl := harg4.eq_unread hfo
  sl_exec (disch := first | exact hf | exact hl)
  sl_step
  iapply Hk
  isplitl [H0]; · iexists _; isplitr; · ipureintro; exact hf0
                  iexact H0
  isplitl [H1]; · iexists _; isplitr; · ipureintro; exact hf1
                  iexact H1
  isplitl [HO]; · iexists _; isplitr; · ipureintro; exact hfo
                  iexact HO
  iexists _; isplitr
  swap; · iexact HS
  ipureintro
  sl_unfold_words
  rw [read_store_whole _ _ zero2]
  simp only [View.readAt_eq_ld, harg2.read_unread, harg3.read_unread, View.ld_unit_zero (S := S4x512x3) zero3, View.ld_unit_zero (S := S4x512) zero2, View.readCov_unit_zero (S := S4x512) _ zero2]

set_option maxHeartbeats 1000000 in
/-- A last column: the scratch goes from `s` to `step a b s`, and the output tile, whatever it held, ends at the same. -/
theorem run_last (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hf : ¬isFirst i) (hl : isLast i)
    (a b : Vec F S4x512x3 .f32) (s : Vec F S4x512 .f32) (E : Set ℕ) (K : PUnit → sProp 𝕄) :
    iprop(owns (c : Thread nD τ) arg2 fullShare a ∗ owns (c : Thread nD τ) arg3 fullShare b ∗ (∃ d, owns (c : Thread nD τ) arg4 fullShare d) ∗ owns (c : Thread nD τ) arg5 fullShare s
        ∗ (iprop(owns (c : Thread nD τ) arg2 fullShare a ∗ owns (c : Thread nD τ) arg3 fullShare b ∗ owns (c : Thread nD τ) arg4 fullShare (step a b s) ∗ owns (c : Thread nD τ) arg5 fullShare (step a b s)) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%do_, %fo, -, HO⟩, ⟨%fs, %hfs, HS⟩, Hk⟩
  obtain rfl := harg2.eq_unread hf0; obtain rfl := harg3.eq_unread hf1; obtain rfl := harg5.eq_unread hfs
  sl_exec (disch := first | exact hf | exact hl)
  sl_step
  iapply Hk
  isplitl [H0]; · iexists _; isplitr; · ipureintro; exact hf0
                  iexact H0
  isplitl [H1]; · iexists _; isplitr; · ipureintro; exact hf1
                  iexact H1
  isplitl [HO]
  · iexists _; isplitr
    swap; · iexact HO
    ipureintro
    sl_unfold_words
    rw [read_store_whole _ _ zero2]
    simp only [View.readAt_eq_ld, harg2.read_unread, harg3.read_unread, harg5.read_unread, View.ld_unit_zero (S := S4x512x3) zero3, View.ld_unit_zero (S := S4x512) zero2, View.readCov_unit_zero (S := S4x512) _ zero2]
  iexists _; isplitr
  swap; · iexact HS
  ipureintro
  sl_unfold_words
  rw [read_store_whole _ _ zero2]
  simp only [View.readAt_eq_ld, harg2.read_unread, harg3.read_unread, harg5.read_unread, View.ld_unit_zero (S := S4x512x3) zero3, View.ld_unit_zero (S := S4x512) zero2]

end Cert.Kernel.Pass1

end
-- ==== Proof.ScratchSplit1Bits.lean ====
/-
  The second pass's scratch among the core's scoped buffers.

  While the second pass runs, the scoped buffers that are none of its staging buffers are the seven buffers of
  the first pass (its six staging buffers and its scratch, all dead by now) and the second pass's own scratch
  (the running minimum).  The region's invariant holds all eight at unspecified contents; this file splits it into
  "the scratch, at some contents" and "the rest" (the other seven buffers and the generator register).
-/
import proofs.«145489_j16003048145308_1_alg».proof.Proof.TileRun1Bits
import Idealize.ShloMosaic.Lib.Pipeline.Frame

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second pass's scratch buffer, whole. -/
abbrev scM : Memref sig .tc .vmem S4x512 .f32 := Memref.whole cc1_scratch0

/-- The scoped buffers the second pass never touches (the first pass's staging buffers and scratch), each at
    some contents, and the generator register at some state. -/
def rest (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))
    ∗ (∃ r, prngReg c r))

/-- The region's invariant gives the scratch at some contents beside the rest, -/
theorem PhiA_open (c : Dev nD) :
    (Pipeline.ΦA spec1 c : sProp 𝕄) ⊢ iprop((∃ d, owns (c : Thread nD τ) scM fullShare d) ∗ rest c) := by
  unfold Pipeline.ΦA rest; rw [scopedRest1_eq]; simp only [scM, owns_whole]
  iintro ⟨⟨H1, H2, H3, H4, H5, H6, H7, HS⟩, Hg⟩
  isplitl [HS]; · iexact HS
  isplitr [Hg]
  · isplitl [H1]; · iexact H1
    isplitl [H2]; · iexact H2
    isplitl [H3]; · iexact H3
    isplitl [H4]; · iexact H4
    isplitl [H5]; · iexact H5
    isplitl [H6]; · iexact H6
    iexact H7
  iexact Hg

/-- and is made of them. -/
theorem PhiA_close (c : Dev nD) :
    iprop((∃ d, owns (c : Thread nD τ) scM fullShare d) ∗ rest c) ⊢ (Pipeline.ΦA spec1 c : sProp 𝕄) := by
  unfold Pipeline.ΦA rest; rw [scopedRest1_eq]; simp only [scM, owns_whole]
  iintro ⟨HS, ⟨H1, H2, H3, H4, H5, H6, H7⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-- So the two are one assertion. -/
theorem PhiA_split (c : Dev nD) :
    (Pipeline.ΦA spec1 c : sProp 𝕄) = iprop((∃ d, owns (c : Thread nD τ) scM fullShare d) ∗ rest c) :=
  BI.equiv_iff.mp ⟨PhiA_open c, PhiA_close c⟩

end Cert.Kernel.Pass1

end
-- ==== Proof.Carry1Bits.lean ====
/-
  The second pass over its 16 × 16 grid: what the scratch and the output tile hold after every point.

  The grid is walked row by row (point `t` is row `t / 16`, column `t % 16`).  Row `i` holds the query tile `i`
  fixed and runs over the 16 candidate tiles.  The scratch after point `t` is the running minimum `carry t`:

      carry t = step (a-tile at t) (b-tile at t) top              if t is a row's first column
      carry t = step (a-tile at t) (b-tile at t) (carry (t-1))     otherwise

  and at a row's last column the output tile is set to `carry t` and written back; at every other column the
  output tile is left as found and not written back.  This file states that as the pipeline's proof data and
  proves the body obligation at every grid point from the three control cases of the kernel call.
-/
import proofs.«145489_j16003048145308_1_alg».proof.Proof.ScratchSplit1Bits
import Idealize.ShloMosaic.Lib.Pipeline.FrameBody

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- Window `w`'s block at point `t`, read off its array as the pass finds it (`V`). -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile is in its staging buffer at every point of its row, although it is fetched only at the row's
    first column: the block index does not move along a row. -/
theorem before_a_of {c : Dev nD} (dat : Dat τ (Elt F) Unit ℕ (UR sig nD τ) ℕ cfg1 c) (hA : dat.A 0 = V c (Pipeline.arrRef spec1 0))
    (hafter : ∀ t, dat.after 0 t = tile V c 0 t) (t : Fin cfg1.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- The candidate tile is fetched at every point. -/
theorem before_b_of {c : Dev nD} (dat : Dat τ (Elt F) Unit ℕ (UR sig nD τ) ℕ cfg1 c) (hA : dat.A 1 = V c (Pipeline.arrRef spec1 1))
    (hafter : ∀ t, dat.after 1 t = tile V c 1 t) (t : Fin cfg1.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-! ## The running minimum -/

/-- What the scratch holds after the point at position `n`. -/
def carry (c : Dev nD) : (n : ℕ) → n < cfg1.N → Vec F S4x512 .f32
  | 0, hn => step (tile V c 0 ⟨0, hn⟩) (tile V c 1 ⟨0, hn⟩) top
  | n + 1, hn =>
    if (n + 1) % 16 = 0 then step (tile V c 0 ⟨n + 1, hn⟩) (tile V c 1 ⟨n + 1, hn⟩) top
    else step (tile V c 0 ⟨n + 1, hn⟩) (tile V c 1 ⟨n + 1, hn⟩) (carry c n (Nat.lt_of_succ_lt hn))

/-- At a row's first column the minimum restarts from `top`. -/
theorem carry_first (c : Dev nD) (t : Fin cfg1.N) (h : t.val % 16 = 0) :
    carry V c t.val t.isLt = step (tile V c 0 t) (tile V c 1 t) top := by
  obtain ⟨n, hn⟩ := t
  cases n with
  | zero => rfl
  | succ n => exact if_pos h

/-- At any other column it continues from the point before. -/
theorem carry_next (c : Dev nD) (t : Fin cfg1.N) (h : ¬t.val % 16 = 0) :
    carry V c t.val t.isLt = step (tile V c 0 t) (tile V c 1 t) (carry V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- Before the first point the region's own invariant (every scoped buffer at anything); after the point at
    position `n` the scratch at `carry n` beside the rest. -/
def inv (c : Dev nD) : (n : ℕ) → n ≤ cfg1.N → sProp 𝕄
  | 0, _ => Pipeline.ΦA spec1 c
  | n + 1, hn => iprop(owns (c : Thread nD τ) scM fullShare (carry V c n hn) ∗ rest c)

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(owns (c : Thread nD τ) scM fullShare (carry V c n hn) ∗ rest c) := rfl
theorem inv_pos (c : Dev nD) (n : ℕ) (h : n ≤ cfg1.N) (hz : n ≠ 0) :
    inv V c n h = iprop(owns (c : Thread nD τ) scM fullShare (carry V c (n - 1) (by omega)) ∗ rest c) := by
  cases n with
  | zero => exact absurd rfl hz
  | succ n => rfl

/-! ## The proof data -/

/-- The pass's proof data on core `c`: its arrays as it finds them; after the body at point `t` the two input
    tiles unchanged and the output tile at the running minimum (consulted only at a row's last column); the
    invariant above; nothing owed; full shares. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => carry V c t.val t.isLt
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]
theorem inv_castSucc (c : Dev nD) (t : Fin cfg1.N) :
    (dat V c).Φ t.castSucc = inv V c t.val (Nat.le_of_lt t.isLt) := by
  dsimp only [dat]; simp only [Fin.coe_castSucc]
theorem after_a (c : Dev nD) (t : Fin cfg1.N) : (dat V c).after 0 t = tile V c 0 t := by dsimp only [dat]
theorem after_b (c : Dev nD) (t : Fin cfg1.N) : (dat V c).after 1 t = tile V c 1 t := by dsimp only [dat]
theorem after_out (c : Dev nD) (t : Fin cfg1.N) : (dat V c).after 2 t = carry V c t.val t.isLt := by dsimp only [dat]
theorem before_a (c : Dev nD) (t : Fin cfg1.N) (d) : (dat V c).before 0 t d = tile V c 0 t :=
  before_a_of V (dat V c) (A_eq V c 0) (after_a V c) t d
theorem before_b (c : Dev nD) (t : Fin cfg1.N) (d) : (dat V c).before 1 t d = tile V c 1 t :=
  before_b_of V (dat V c) (A_eq V c 1) (after_b V c) t d

/-! ## Where the windows are idle -/

theorem live_a : ∀ t : Fin cfg1.N, cfg1.idle 0 (grid1.coords t) = false := by decide +kernel
theorem live_b : ∀ t : Fin cfg1.N, cfg1.idle 1 (grid1.coords t) = false := by decide +kernel
/-- Off a row's last column the output tile is idle and not written back; -/
theorem idle_out : ∀ t : Fin cfg1.N, ¬isLast (grid1.coords t) → cfg1.idle 2 (grid1.coords t) = true := by decide +kernel
theorem noFlush_out : ∀ t : Fin cfg1.N, ¬isLast (grid1.coords t) → (cfg1.win 2).flush t = false := by decide +kernel
/-- on it, it is stored. -/
theorem live_out : ∀ t : Fin cfg1.N, isLast (grid1.coords t) → cfg1.idle 2 (grid1.coords t) = false := by decide +kernel

/-! ## The body obligation -/

/-- Each window's current staging memref at point `t`, as the pipeline passes it to the kernel. -/
abbrev ms_a (t : Fin cfg1.N) : Memref sig .tc .vmem S4x512x3 .f32 := win1_0.stage (cfg1.slots t 0)
abbrev ms_b (t : Fin cfg1.N) : Memref sig .tc .vmem S4x512x3 .f32 := win1_1.stage (cfg1.slots t 1)
abbrev ms_out (t : Fin cfg1.N) : Memref sig .tc .vmem S4x512 .f32 := win1_2.stage (cfg1.slots t 2)

def bodyPre (c : Dev nD) (t : Fin cfg1.N) : sProp 𝕄 :=
  iprop((dat V c).Φ t.castSucc ∗ (dat V c).owesAt () t.castSucc
    ∗ (∃ d, owns (c : Thread nD τ) (ms_a t) fullShare ((dat V c).before 0 t d))
    ∗ (∃ d, owns (c : Thread nD τ) (ms_b t) fullShare ((dat V c).before 1 t d))
    ∗ (∃ d, owns (c : Thread nD τ) (ms_out t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the column decides the control case; the invariant hands over the scratch (at anything
    before the first point, at the point before's running minimum afterwards) and takes it back at this point's. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_a, before_b]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms_a t) fullShare ((dat V c).after 0 t) from by
    unfold Dat.leavesExact; rw [live_a t], after_a]
  rw [show (dat V c).leavesExact 1 t = owns (c : Thread nD τ) (ms_b t) fullShare ((dat V c).after 1 t) from by
    unfold Dat.leavesExact; rw [live_b t], after_b]
  have hN : t.val < 256 := lt_of_lt_of_eq t.isLt (show cfg1.N = 256 from N_1)
  rw [inv_castSucc V c t]
  by_cases hf : t.val % 16 = 0
  · have hl : ¬t.val % 16 = 15 := by omega
    have hnl : ¬isLast (grid1.coords t) := fun h => hl ((isLast_iff t).mp h)
    rw [Dat.leavesExact_idle (dat V c) 2 t (idle_out t hnl) (noFlush_out t hnl), carry_first V c t hf]
    by_cases hz : t.val = 0
    · rw [inv_zero V c _ _ hz, PhiA_split]
      iintro ⟨⟨HS, Hr⟩, Ho, ⟨%d0, H0⟩, ⟨%d1, H1⟩, ⟨%d2, H2⟩⟩
      iapply (run_first c (grid1.coords t) _ _ _ _ _ _ _ _ ((isFirst_iff t).mpr hf) hnl (tile V c 0 t) (tile V c 1 t) ((dat V c).before 2 t d2) Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2
    · rw [inv_pos V c _ _ hz]
      iintro ⟨⟨HS, Hr⟩, Ho, ⟨%d0, H0⟩, ⟨%d1, H1⟩, ⟨%d2, H2⟩⟩
      iapply (run_first c (grid1.coords t) _ _ _ _ _ _ _ _ ((isFirst_iff t).mpr hf) hnl (tile V c 0 t) (tile V c 1 t) ((dat V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2
  · have hz : t.val ≠ 0 := fun h => hf (by rw [h])
    have hnf : ¬isFirst (grid1.coords t) := fun h => hf ((isFirst_iff t).mp h)
    rw [inv_pos V c _ _ hz, carry_next V c t hf]
    by_cases hl : t.val % 16 = 15
    · have hil : isLast (grid1.coords t) := (isLast_iff t).mpr hl
      rw [show (dat V c).leavesExact 2 t = owns (c : Thread nD τ) (ms_out t) fullShare ((dat V c).after 2 t) from by
        unfold Dat.leavesExact; rw [live_out t hil], after_out, carry_next V c t hf]
      iintro ⟨⟨HS, Hr⟩, Ho, ⟨%d0, H0⟩, ⟨%d1, H1⟩, ⟨%d2, H2⟩⟩
      iapply (run_last c (grid1.coords t) _ _ _ _ _ _ _ _ hnf hil (tile V c 0 t) (tile V c 1 t) (carry V c (t.val - 1) _) Set.univ _)
      isplitl [H0]; · iexact H0
      isplitl [H1]; · iexact H1
      isplitl [H2]; · iexists _; iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexact H2
    · have hnl : ¬isLast (grid1.coords t) := fun h => hl ((isLast_iff t).mp h)
      rw [Dat.leavesExact_idle (dat V c) 2 t (idle_out t hnl) (noFlush_out t hnl)]
      iintro ⟨⟨HS, Hr⟩, Ho, ⟨%d0, H0⟩, ⟨%d1, H1⟩, ⟨%d2, H2⟩⟩
      iapply (run_middle c (grid1.coords t) _ _ _ _ _ _ _ _ hnf hnl (tile V c 0 t) (tile V c 1 t) ((dat V c).before 2 t d2) (carry V c (t.val - 1) _) Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = inv V c 0 (Nat.zero_le _) from rfl, inv_zero V c 0 _ rfl]

/-- After the last point the invariant gives the region's own back: the scratch's contents are forgotten. -/
theorem hout (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 256 := N_1; omega), PhiA_split]
  iintro ⟨HS, Hr⟩
  isplitl [HS]; · iexists _; iexact HS
  iexact Hr

end Cert.Kernel.Pass1

end
-- ==== Proof.ProgramBits.lean ====
/-
  The whole program: the two passes one after the other, then the two means and their sum.

  @main is three items: the first pass (queries `points1` against candidates `points2`, result `main_v0`), the
  second pass (the same kernel with the point sets exchanged, result `main_v1`), and nine host operations (each
  result summed over all its entries, divided by 32768, the two quotients added).  This file follows the contents
  of the core's buffers through the three items:

      W0 = the launch memory
      W1 = W0 with the first pass's arrays at what its write-backs leave
      W2 = W1 with the second pass's arrays at what its write-backs leave
      W3 = W2 after the nine host operations

  and proves that every weakly fair execution terminates with every unscoped buffer at `W3`.  Each pass is a
  segment entered from "all unscoped buffers at the contents before it, the generator register somewhere, nothing
  owed" and left at the same with the contents after it; a pass's arrays are split out of the unscoped buffers at
  its entry and put back at its exit, and its invariant is the region's own at both ends (the scratch's contents
  are tracked only inside the pass).
-/
import proofs.«145489_j16003048145308_1_alg».proof.Proof.Carry0Bits
import proofs.«145489_j16003048145308_1_alg».proof.Proof.Carry1Bits
import Idealize.ShloMosaic.Lib.Pipeline.FrameBody
import Idealize.ShloMosaic.Lib.Pipeline.RegionsLoop
import Idealize.ShloMosaic.Lib.Pipeline.FrameSuffix
import Idealize.ShloMosaic.Lib.StableHlo.Run

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- At launch. -/
abbrev W0 : Dev nD → Valuation τ sig (Elt F) := fun c b => m (c, b)
/-- The same read at the TensorCore's references: what the first pass's proof data take. -/
abbrev V0 : (c : Dev nD) → (b : Ref sig .tc) → Buf (Elt F) ((c : Thread nD τ).loc b) := fun c b => W0 m c b
/-- After the first pass. -/
def W1 (c : Dev nD) : Valuation τ sig (Elt F) :=
  Pipeline.withArrays spec0 c (W0 m c) fun w => (Pass0.dat (V0 m) c).arrAt w cfg0.N
theorem W1_arr (c : Dev nD) (w : Fin cfg0.W) :
    W1 m c (Proc.devRef .tc (Pipeline.arrRef spec0 w)) = (Pass0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Pass0.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second pass. -/
def W2 (c : Dev nD) : Valuation τ sig (Elt F) :=
  Pipeline.withArrays spec1 c (W1 m c) fun w => (Pass1.dat (V1 m) c).arrAt w cfg1.N
theorem W2_arr (c : Dev nD) (w : Fin cfg1.W) :
    W2 m c (Proc.devRef .tc (Pipeline.arrRef spec1 w)) = (Pass1.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (Pass1.dat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host operations. -/
abbrev W3 : Dev nD → Valuation τ sig (Elt F) := fun c => StableHlo.after hostOps2 (W2 m c)

/-! ## The proof data family and the thread state -/

abbrev adm : (p : Fin 2) → (pcfgs (F := F) p).Adm := fun p => (cfgs p).toPCfg_adm
/-- Both passes' proof data, each at its entry contents (a literal match on the pipeline's number). -/
def pdats : (p : Fin 2) → (c : Dev nD) → Dat τ (Elt F) Unit ℕ (UR sig nD τ) ℕ (Pipeline.pin (pcfgs (F := F)) adm p) c
  | ⟨0, _⟩ => fun c => Pass0.dat (V0 m) c
  | ⟨1, _⟩ => fun c => Pass1.dat (V1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host operations as a segment over the unscoped buffers from `W2`. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-! ## The two passes as segments -/

set_option backward.isDefEq.respectTransparency.types false in
/-- The first pass: entered from every unscoped buffer at `W0`, left at `W1`. -/
def pass0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pass0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Pass0.hout (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass: entered from every unscoped buffer at `W1`, left at `W2`. -/
def pass1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pass1.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Pass1.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (pass0 m), .region (pass1 m), .host (hostSeg m) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    final memory holds every unscoped buffer at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W3 m c))
    (hch := ⟨fun _ => .rfl, fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨Hh, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## What the last boundary holds: the arguments as launched, the result as the means' sum -/

/-- No host operation writes an argument. -/
theorem hostOps2_keeps (b : Ref sig .tc) (hb : b = main_arg0 ∨ b = main_arg1 ∨ b = main_v0 ∨ b = main_v1) :
    ∀ op ∈ (hostOps2 : List (HloOp τ sig (Elt F))), Proc.devRef .tc b ∉ op.writes := by
  refine List.forall_iff_forall_mem.mp ?_
  simp only [hostOps2, List.Forall, StableHlo.nullary_writes, StableHlo.binary_writes, Finset.mem_singleton]
  rcases hb with rfl | rfl | rfl | rfl
  all_goals (repeat' apply And.intro) <;> exact StableHlo.devRef_ne_of_ne (by decide)

/-- The first point set ends as launched: the host operations do not write it, and each pass only reads it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (hostOps2_keeps main_arg0 (.inl rfl))
    _ = W1 m c (Proc.devRef .tc main_arg0) := (W2_arr m c 1).trans (((Pass1.dat (V1 m) c).arrAt_in 1 rfl _).trans (Pass1.A_eq (V1 m) c 1))
    _ = W0 m c (Proc.devRef .tc main_arg0) := (W1_arr m c 0).trans (((Pass0.dat (V0 m) c).arrAt_in 0 rfl _).trans (Pass0.A_eq (V0 m) c 0))
    _ = m ((c : Thread nD τ).loc main_arg0) := rfl

/-- So does the second. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (hostOps2_keeps main_arg1 (.inr (.inl rfl)))
    _ = W1 m c (Proc.devRef .tc main_arg1) := (W2_arr m c 0).trans (((Pass1.dat (V1 m) c).arrAt_in 0 rfl _).trans (Pass1.A_eq (V1 m) c 0))
    _ = W0 m c (Proc.devRef .tc main_arg1) := (W1_arr m c 1).trans (((Pass0.dat (V0 m) c).arrAt_in 1 rfl _).trans (Pass0.A_eq (V0 m) c 1))
    _ = m ((c : Thread nD τ).loc main_arg1) := rfl

/-- The second pass finds the two point sets as launched (the first pass only read them). -/
theorem V1_main_arg0 (c : Dev nD) : V1 m c main_arg0 = m ((c : Thread nD τ).loc main_arg0) :=
  (W1_arr m c 0).trans (((Pass0.dat (V0 m) c).arrAt_in 0 rfl _).trans (Pass0.A_eq (V0 m) c 0))
theorem V1_main_arg1 (c : Dev nD) : V1 m c main_arg1 = m ((c : Thread nD τ).loc main_arg1) :=
  (W1_arr m c 1).trans (((Pass0.dat (V0 m) c).arrAt_in 1 rfl _).trans (Pass0.A_eq (V0 m) c 1))

/-- The second pass does not touch the first pass's result. -/
theorem W2_main_v0 (c : Dev nD) : W2 m c (Proc.devRef .tc main_v0) = (Pass0.dat (V0 m) c).arrAt 2 cfg0.N :=
  (W2_of_ne m c main_v0 (by decide)).trans (W1_arr m c 2)
theorem W2_main_v1 (c : Dev nD) : W2 m c (Proc.devRef .tc main_v1) = (Pass1.dat (V1 m) c).arrAt 2 cfg1.N :=
  W2_arr m c 2

/-- The host operations after the two passes, as one function of the two result arrays: each summed over all its
    entries and divided by 32768, the two quotients added. -/
def meansSum (u v : (⟨S4x8192, .f32⟩ : BufTy).Contents (Elt F)) : (⟨S_, .f32⟩ : BufTy).Contents (Elt F) :=
  addf (Host.divf (Host.reduceAdd u (constant (F := F) S_ .f32 0x00000000#32) Facts₀.reducesTo_S4x8192_S_d0_1 Facts₀.h_S_) (constant (F := F) S_ .f32 0x47000000#32))
    (Host.divf (Host.reduceAdd v (constant (F := F) S_ .f32 0x00000000#32) Facts₀.reducesTo_S4x8192_S_d0_1 Facts₀.h_S_) (constant (F := F) S_ .f32 0x47000000#32))

/-- The program's result is that function of what the two passes left. -/
theorem W3_main_v6 (c : Dev nD) :
    W3 m c (Proc.devRef .tc main_v6) = meansSum (W2 m c (Proc.devRef .tc main_v0)) (W2 m c (Proc.devRef .tc main_v1)) := by
  show StableHlo.after hostOps2 (W2 m c) (Proc.devRef .tc main_v6) = _
  after_results
  rfl

end Cert.Kernel.Whole

end
-- ==== Proof.TileRun0.lean ====
/-
  One call of the tile kernel in the first pass (nearest candidate of every query), on whole staging buffers.

  The kernel keeps a running minimum `acc` in a scratch buffer.  At a grid point `(i, j)` it is handed a tile
  `a` of 512 query points and a tile `b` of 512 candidate points (4 batches, 3 coordinates each) and does

      if j = 0 then acc := +∞
      acc := min acc (tileMin a b)          -- tileMin a b [β, r] = min over the 512 candidates of the distance
      if j = 15 then out := acc

  so the call has three control cases: the row's first column (`j = 0`: the scratch is reset, then updated),
  a middle column (the scratch is updated), and the row's last column (`j = 15`: updated, then copied to the
  output tile).  No point is both first and last (the row has 16 columns).  In every case the two input tiles
  are read and handed back unchanged; the output tile is touched only in the last case.

  What the scratch holds afterwards is the store's payload `step a b s`, a pure function of the two tiles and of
  what the scratch held before (`s`); on a first column `s` is the constant tile `top` (every entry +∞).
-/
import proofs.«145489_j16003048145308_1_alg».proof.Proof.Gen.KernelIdeal.Launch
import proofs.«145489_j16003048145308_1_alg».proof.Proof.Gen.KernelIdeal.Skeleton
import proofs.«145489_j16003048145308_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Pass0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two column tests -/

/-- "This is the row's first column": the kernel's own scalar chain for `j = 0`. -/
abbrev isFirst (i : grid0.Coords) : Prop :=
  (Scalar.cmpi .ne (Scalar.extui (Scalar.cmpi .eq (BitVec.ofNat 32 (i 1).val) 0#32)) 0#32) = 1#1
/-- "This is the row's last column": the kernel's own scalar chain for `j = 15`. -/
abbrev isLast (i : grid0.Coords) : Prop := k0_cond2 i = 1#1

/-- Over the 256 grid points in row-major order the first column is the points `≡ 0 (mod 16)`, -/
theorem isFirst_iff : ∀ t : Fin cfg0.N, isFirst (grid0.coords t) ↔ t.val % 16 = 0 :=
  (by decide +kernel : ∀ t : Fin grid0.N, isFirst (grid0.coords t) ↔ t.val % 16 = 0)
/-- and the last column the points `≡ 15 (mod 16)`. -/
theorem isLast_iff : ∀ t : Fin cfg0.N, isLast (grid0.coords t) ↔ t.val % 16 = 15 :=
  (by decide +kernel : ∀ t : Fin grid0.N, isLast (grid0.coords t) ↔ t.val % 16 = 15)

/-! ## The scratch update as a pure function -/

/-- The constant tile the scratch is reset to: every entry `+∞`. -/
abbrev top : Vec F S4x512 .f32 := k0_pay1 (F := F)
/-- What the scratch holds after the update: entrywise the minimum of what it held (`s`) and the tile minimum of
    the distances between the query tile `a` and the candidate tile `b`. -/
abbrev step (a b : Vec F S4x512x3 .f32) (s : Vec F S4x512 .f32) : Vec F S4x512 .f32 := k0_pay2 a b s

theorem zero2 : (![0, 0] : Fin 2 → Nat) = fun _ => 0 := by funext a; fin_cases a <;> rfl
theorem zero3 : (![0, 0, 0] : Fin 3 → Nat) = fun _ => 0 := by funext a; fin_cases a <;> rfl

/-- After a store through the whole-shape rectangle (made last), a buffer reads back as that store's payload,
    whatever was stored before and whatever the buffer held. -/
theorem read_store_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a)
    (p : S.Idx → Elt F e) (L : List (View.Piece (Elt F) S e)) :
    v.read (Elt F) (v.writes (Elt F) f ((⟨Rect.unit off S.size inb, p⟩ : View.Piece (Elt F) S e) :: L)) = p := by
  rw [View.read_writes_eq_canon v f _ (fun y => ⟨⟨Rect.unit off S.size inb, p⟩, List.mem_cons_self, View.mem_set_unit_zero h inb y⟩)]
  exact View.canon_cons_unit_zero h inb p L

/-! ## The three control cases -/

set_option maxHeartbeats 1000000 in
/-- A middle column: the scratch goes from `s` to `step a b s`; the output tile is handed back as found. -/
theorem run_middle (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hf : ¬isFirst i) (hl : ¬isLast i)
    (a b : Vec F S4x512x3 .f32) (o s : Vec F S4x512 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare o ∗ owns (c : Thread nD τ) arg5 fullShare (step a b s)) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hf | exact hl)
  sl_step
  iapply Hk
  isplitl [H0]; · iexists _; isplitr; · ipureintro; exact hf0
                  iexact H0
  isplitl [H1]; · iexists _; isplitr; · ipureintro; exact hf1
                  iexact H1
  isplitl [HO]; · iexists _; isplitr; · ipureintro; exact hfo
                  iexact HO
  iexists _; isplitr
  swap; · iexact HS
  ipureintro
  sl_unfold_words
  rw [read_store_whole _ _ zero2]
  simp only [View.readAt_eq_ld, harg2.read_unread, harg3.read_unread, harg5.read_unread, View.ld_unit_zero (S := S4x512x3) zero3, View.ld_unit_zero (S := S4x512) zero2]

set_option maxHeartbeats 1000000 in
/-- A first column: whatever the scratch held, it ends at `step a b top`; the output tile is handed back as found. -/
theorem run_first (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hf : isFirst i) (hl : ¬isLast i)
    (a b : Vec F S4x512x3 .f32) (o : Vec F S4x512 .f32) (E : Set ℕ) (K : PUnit → sProp 𝕄) :
    iprop(owns (c : Thread nD τ) arg2 fullShare a ∗ owns (c : Thread nD τ) arg3 fullShare b ∗ owns (c : Thread nD τ) arg4 fullShare o ∗ (∃ d, owns (c : Thread nD τ) arg5 fullShare d)
        ∗ (iprop(owns (c : Thread nD τ) arg2 fullShare a ∗ owns (c : Thread nD τ) arg3 fullShare b ∗ owns (c : Thread nD τ) arg4 fullShare o ∗ owns (c : Thread nD τ) arg5 fullShare (step a b top)) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%fo, %hfo, HO⟩, ⟨%ds, %fs, -, HS⟩, Hk⟩
  obtain rfl := harg2.eq_unread hf0; obtain rfl := harg3.eq_unread hf1; obtain rfl := harg4.eq_unread hfo
  sl_exec (disch := first | exact hf | exact hl)
  sl_step
  iapply Hk
  isplitl [H0]; · iexists _; isplitr; · ipureintro; exact hf0
                  iexact H0
  isplitl [H1]; · iexists _; isplitr; · ipureintro; exact hf1
                  iexact H1
  isplitl [HO]; · iexists _; isplitr; · ipureintro; exact hfo
                  iexact HO
  iexists _; isplitr
  swap; · iexact HS
  ipureintro
  sl_unfold_words
  rw [read_store_whole _ _ zero2]
  simp only [View.readAt_eq_ld, harg2.read_unread, harg3.read_unread, View.ld_unit_zero (S := S4x512x3) zero3, View.ld_unit_zero (S := S4x512) zero2, View.readCov_unit_zero (S := S4x512) _ zero2]

set_option maxHeartbeats 1000000 in
/-- A last column: the scratch goes from `s` to `step a b s`, and the output tile, whatever it held, ends at the same. -/
theorem run_last (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hf : ¬isFirst i) (hl : isLast i)
    (a b : Vec F S4x512x3 .f32) (s : Vec F S4x512 .f32) (E : Set ℕ) (K : PUnit → sProp 𝕄) :
    iprop(owns (c : Thread nD τ) arg2 fullShare a ∗ owns (c : Thread nD τ) arg3 fullShare b ∗ (∃ d, owns (c : Thread nD τ) arg4 fullShare d) ∗ owns (c : Thread nD τ) arg5 fullShare s
        ∗ (iprop(owns (c : Thread nD τ) arg2 fullShare a ∗ owns (c : Thread nD τ) arg3 fullShare b ∗ owns (c : Thread nD τ) arg4 fullShare (step a b s) ∗ owns (c : Thread nD τ) arg5 fullShare (step a b s)) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%do_, %fo, -, HO⟩, ⟨%fs, %hfs, HS⟩, Hk⟩
  obtain rfl := harg2.eq_unread hf0; obtain rfl := harg3.eq_unread hf1; obtain rfl := harg5.eq_unread hfs
  sl_exec (disch := first | exact hf | exact hl)
  sl_step
  iapply Hk
  isplitl [H0]; · iexists _; isplitr; · ipureintro; exact hf0
                  iexact H0
  isplitl [H1]; · iexists _; isplitr; · ipureintro; exact hf1
                  iexact H1
  isplitl [HO]
  · iexists _; isplitr
    swap; · iexact HO
    ipureintro
    sl_unfold_words
    rw [read_store_whole _ _ zero2]
    simp only [View.readAt_eq_ld, harg2.read_unread, harg3.read_unread, harg5.read_unread, View.ld_unit_zero (S := S4x512x3) zero3, View.ld_unit_zero (S := S4x512) zero2, View.readCov_unit_zero (S := S4x512) _ zero2]
  iexists _; isplitr
  swap; · iexact HS
  ipureintro
  sl_unfold_words
  rw [read_store_whole _ _ zero2]
  simp only [View.readAt_eq_ld, harg2.read_unread, harg3.read_unread, harg5.read_unread, View.ld_unit_zero (S := S4x512x3) zero3, View.ld_unit_zero (S := S4x512) zero2]

end Cert.KernelIdeal.Pass0

end
-- ==== Proof.ScratchSplit0.lean ====
/-
  The first pass's scratch among the core's scoped buffers.

  While the first pass runs, the scoped buffers that are none of its staging buffers are its own scratch (the
  running minimum) and the seven buffers of the second pass (its six staging buffers and its scratch).  The
  region's invariant holds all eight at unspecified contents; this file
  splits it into "the scratch, at some contents" and "the rest" (the other seven buffers and the generator
  register), so that the running minimum can be tracked through the scratch alone.
-/
import proofs.«145489_j16003048145308_1_alg».proof.Proof.TileRun0
import Idealize.ShloMosaic.Lib.Pipeline.Frame

set_option maxRecDepth 16384

noncomputable section

namespace Cert.KernelIdeal.Pass0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first pass's scratch buffer, whole. -/
abbrev scM : Memref sig .tc .vmem S4x512 .f32 := Memref.whole cc0_scratch0

/-- The scoped buffers the first pass never touches (the second pass's staging buffers and scratch), each at
    some contents, and the generator register at some state. -/
def rest (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))
    ∗ (∃ r, prngReg c r))

/-- The region's invariant gives the scratch at some contents beside the rest, -/
theorem PhiA_open (c : Dev nD) :
    (Pipeline.ΦA spec0 c : sProp 𝕄) ⊢ iprop((∃ d, owns (c : Thread nD τ) scM fullShare d) ∗ rest c) := by
  unfold Pipeline.ΦA rest; rw [scopedRest0_eq]; simp only [scM, owns_whole]
  iintro ⟨⟨HS, H1, H2, H3, H4, H5, H6, H7⟩, Hg⟩
  isplitl [HS]; · iexact HS
  isplitr [Hg]
  · isplitl [H1]; · iexact H1
    isplitl [H2]; · iexact H2
    isplitl [H3]; · iexact H3
    isplitl [H4]; · iexact H4
    isplitl [H5]; · iexact H5
    isplitl [H6]; · iexact H6
    iexact H7
  iexact Hg

/-- and is made of them. -/
theorem PhiA_close (c : Dev nD) :
    iprop((∃ d, owns (c : Thread nD τ) scM fullShare d) ∗ rest c) ⊢ (Pipeline.ΦA spec0 c : sProp 𝕄) := by
  unfold Pipeline.ΦA rest; rw [scopedRest0_eq]; simp only [scM, owns_whole]
  iintro ⟨HS, ⟨H1, H2, H3, H4, H5, H6, H7⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-- So the two are one assertion. -/
theorem PhiA_split (c : Dev nD) :
    (Pipeline.ΦA spec0 c : sProp 𝕄) = iprop((∃ d, owns (c : Thread nD τ) scM fullShare d) ∗ rest c) :=
  BI.equiv_iff.mp ⟨PhiA_open c, PhiA_close c⟩

end Cert.KernelIdeal.Pass0

end
-- ==== Proof.Carry0.lean ====
/-
  The first pass over its 16 × 16 grid: what the scratch and the output tile hold after every point.

  The grid is walked row by row (point `t` is row `t / 16`, column `t % 16`).  Row `i` holds the query tile `i`
  fixed and runs over the 16 candidate tiles.  The scratch after point `t` is the running minimum `carry t`:

      carry t = step (a-tile at t) (b-tile at t) top              if t is a row's first column
      carry t = step (a-tile at t) (b-tile at t) (carry (t-1))     otherwise

  and at a row's last column the output tile is set to `carry t` and written back; at every other column the
  output tile is left as found and not written back.  This file states that as the pipeline's proof data and
  proves the body obligation at every grid point from the three control cases of the kernel call.
-/
import proofs.«145489_j16003048145308_1_alg».proof.Proof.ScratchSplit0
import Idealize.ShloMosaic.Lib.Pipeline.FrameBody

set_option maxRecDepth 16384

noncomputable section

namespace Cert.KernelIdeal.Pass0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- Window `w`'s block at point `t`, read off its array as the pass finds it (`V`). -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query tile is in its staging buffer at every point of its row, although it is fetched only at the row's
    first column: the block index does not move along a row. -/
theorem before_a_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- The candidate tile is fetched at every point. -/
theorem before_b_of {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-! ## The running minimum -/

/-- What the scratch holds after the point at position `n`. -/
def carry (c : Dev nD) : (n : ℕ) → n < cfg0.N → Vec F S4x512 .f32
  | 0, hn => step (tile V c 0 ⟨0, hn⟩) (tile V c 1 ⟨0, hn⟩) top
  | n + 1, hn =>
    if (n + 1) % 16 = 0 then step (tile V c 0 ⟨n + 1, hn⟩) (tile V c 1 ⟨n + 1, hn⟩) top
    else step (tile V c 0 ⟨n + 1, hn⟩) (tile V c 1 ⟨n + 1, hn⟩) (carry c n (Nat.lt_of_succ_lt hn))

/-- At a row's first column the minimum restarts from `top`. -/
theorem carry_first (c : Dev nD) (t : Fin cfg0.N) (h : t.val % 16 = 0) :
    carry V c t.val t.isLt = step (tile V c 0 t) (tile V c 1 t) top := by
  obtain ⟨n, hn⟩ := t
  cases n with
  | zero => rfl
  | succ n => exact if_pos h

/-- At any other column it continues from the point before. -/
theorem carry_next (c : Dev nD) (t : Fin cfg0.N) (h : ¬t.val % 16 = 0) :
    carry V c t.val t.isLt = step (tile V c 0 t) (tile V c 1 t) (carry V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- Before the first point the region's own invariant (every scoped buffer at anything); after the point at
    position `n` the scratch at `carry n` beside the rest. -/
def inv (c : Dev nD) : (n : ℕ) → n ≤ cfg0.N → sProp 𝕄
  | 0, _ => Pipeline.ΦA spec0 c
  | n + 1, hn => iprop(owns (c : Thread nD τ) scM fullShare (carry V c n hn) ∗ rest c)

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(owns (c : Thread nD τ) scM fullShare (carry V c n hn) ∗ rest c) := rfl
theorem inv_pos (c : Dev nD) (n : ℕ) (h : n ≤ cfg0.N) (hz : n ≠ 0) :
    inv V c n h = iprop(owns (c : Thread nD τ) scM fullShare (carry V c (n - 1) (by omega)) ∗ rest c) := by
  cases n with
  | zero => exact absurd rfl hz
  | succ n => rfl

/-! ## The proof data -/

/-- The pass's proof data on core `c`: its arrays as it finds them; after the body at point `t` the two input
    tiles unchanged and the output tile at the running minimum (consulted only at a row's last column); the
    invariant above; nothing owed; full shares. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => carry V c t.val t.isLt
  Φ t := inv V c t.val (Nat.le_of_lt_succ t.isLt)
  q _ := fullShare
  owed _ := 0

theorem A_eq (c : Dev nD) (w : Fin cfg0.W) : (dat V c).A w = V c (Pipeline.arrRef spec0 w) := by
  dsimp only [dat]
theorem inv_castSucc (c : Dev nD) (t : Fin cfg0.N) :
    (dat V c).Φ t.castSucc = inv V c t.val (Nat.le_of_lt t.isLt) := by
  dsimp only [dat]; simp only [Fin.coe_castSucc]
theorem after_a (c : Dev nD) (t : Fin cfg0.N) : (dat V c).after 0 t = tile V c 0 t := by dsimp only [dat]
theorem after_b (c : Dev nD) (t : Fin cfg0.N) : (dat V c).after 1 t = tile V c 1 t := by dsimp only [dat]
theorem after_out (c : Dev nD) (t : Fin cfg0.N) : (dat V c).after 2 t = carry V c t.val t.isLt := by dsimp only [dat]
theorem before_a (c : Dev nD) (t : Fin cfg0.N) (d) : (dat V c).before 0 t d = tile V c 0 t :=
  before_a_of V (dat V c) (A_eq V c 0) (after_a V c) t d
theorem before_b (c : Dev nD) (t : Fin cfg0.N) (d) : (dat V c).before 1 t d = tile V c 1 t :=
  before_b_of V (dat V c) (A_eq V c 1) (after_b V c) t d

/-! ## Where the windows are idle -/

theorem live_a : ∀ t : Fin cfg0.N, cfg0.idle 0 (grid0.coords t) = false := by decide +kernel
theorem live_b : ∀ t : Fin cfg0.N, cfg0.idle 1 (grid0.coords t) = false := by decide +kernel
/-- Off a row's last column the output tile is idle and not written back; -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- on it, it is stored. -/
theorem live_out : ∀ t : Fin cfg0.N, isLast (grid0.coords t) → cfg0.idle 2 (grid0.coords t) = false := by decide +kernel

/-! ## The body obligation -/

/-- Each window's current staging memref at point `t`, as the pipeline passes it to the kernel. -/
abbrev ms_a (t : Fin cfg0.N) : Memref sig .tc .vmem S4x512x3 .f32 := win0_0.stage (cfg0.slots t 0)
abbrev ms_b (t : Fin cfg0.N) : Memref sig .tc .vmem S4x512x3 .f32 := win0_1.stage (cfg0.slots t 1)
abbrev ms_out (t : Fin cfg0.N) : Memref sig .tc .vmem S4x512 .f32 := win0_2.stage (cfg0.slots t 2)

def bodyPre (c : Dev nD) (t : Fin cfg0.N) : sProp 𝕄 :=
  iprop((dat V c).Φ t.castSucc ∗ (dat V c).owesAt () t.castSucc
    ∗ (∃ d, owns (c : Thread nD τ) (ms_a t) fullShare ((dat V c).before 0 t d))
    ∗ (∃ d, owns (c : Thread nD τ) (ms_b t) fullShare ((dat V c).before 1 t d))
    ∗ (∃ d, owns (c : Thread nD τ) (ms_out t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the column decides the control case; the invariant hands over the scratch (at anything
    before the first point, at the point before's running minimum afterwards) and takes it back at this point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_a, before_b]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms_a t) fullShare ((dat V c).after 0 t) from by
    unfold Dat.leavesExact; rw [live_a t], after_a]
  rw [show (dat V c).leavesExact 1 t = owns (c : Thread nD τ) (ms_b t) fullShare ((dat V c).after 1 t) from by
    unfold Dat.leavesExact; rw [live_b t], after_b]
  have hN : t.val < 256 := lt_of_lt_of_eq t.isLt (show cfg0.N = 256 from N_0)
  rw [inv_castSucc V c t]
  by_cases hf : t.val % 16 = 0
  · have hl : ¬t.val % 16 = 15 := by omega
    have hnl : ¬isLast (grid0.coords t) := fun h => hl ((isLast_iff t).mp h)
    rw [Dat.leavesExact_idle (dat V c) 2 t (idle_out t hnl) (noFlush_out t hnl), carry_first V c t hf]
    by_cases hz : t.val = 0
    · rw [inv_zero V c _ _ hz, PhiA_split]
      iintro ⟨⟨HS, Hr⟩, Ho, ⟨%d0, H0⟩, ⟨%d1, H1⟩, ⟨%d2, H2⟩⟩
      iapply (run_first c (grid0.coords t) _ _ _ _ _ _ _ _ ((isFirst_iff t).mpr hf) hnl (tile V c 0 t) (tile V c 1 t) ((dat V c).before 2 t d2) Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2
    · rw [inv_pos V c _ _ hz]
      iintro ⟨⟨HS, Hr⟩, Ho, ⟨%d0, H0⟩, ⟨%d1, H1⟩, ⟨%d2, H2⟩⟩
      iapply (run_first c (grid0.coords t) _ _ _ _ _ _ _ _ ((isFirst_iff t).mpr hf) hnl (tile V c 0 t) (tile V c 1 t) ((dat V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2
  · have hz : t.val ≠ 0 := fun h => hf (by rw [h])
    have hnf : ¬isFirst (grid0.coords t) := fun h => hf ((isFirst_iff t).mp h)
    rw [inv_pos V c _ _ hz, carry_next V c t hf]
    by_cases hl : t.val % 16 = 15
    · have hil : isLast (grid0.coords t) := (isLast_iff t).mpr hl
      rw [show (dat V c).leavesExact 2 t = owns (c : Thread nD τ) (ms_out t) fullShare ((dat V c).after 2 t) from by
        unfold Dat.leavesExact; rw [live_out t hil], after_out, carry_next V c t hf]
      iintro ⟨⟨HS, Hr⟩, Ho, ⟨%d0, H0⟩, ⟨%d1, H1⟩, ⟨%d2, H2⟩⟩
      iapply (run_last c (grid0.coords t) _ _ _ _ _ _ _ _ hnf hil (tile V c 0 t) (tile V c 1 t) (carry V c (t.val - 1) _) Set.univ _)
      isplitl [H0]; · iexact H0
      isplitl [H1]; · iexact H1
      isplitl [H2]; · iexists _; iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexact H2
    · have hnl : ¬isLast (grid0.coords t) := fun h => hl ((isLast_iff t).mp h)
      rw [Dat.leavesExact_idle (dat V c) 2 t (idle_out t hnl) (noFlush_out t hnl)]
      iintro ⟨⟨HS, Hr⟩, Ho, ⟨%d0, H0⟩, ⟨%d1, H1⟩, ⟨%d2, H2⟩⟩
      iapply (run_middle c (grid0.coords t) _ _ _ _ _ _ _ _ hnf hnl (tile V c 0 t) (tile V c 1 t) ((dat V c).before 2 t d2) (carry V c (t.val - 1) _) Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = inv V c 0 (Nat.zero_le _) from rfl, inv_zero V c 0 _ rfl]

/-- After the last point the invariant gives the region's own back: the scratch's contents are forgotten. -/
theorem hout (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 256 := N_0; omega), PhiA_split]
  iintro ⟨HS, Hr⟩
  isplitl [HS]; · iexists _; iexact HS
  iexact Hr

end Cert.KernelIdeal.Pass0

end
-- ==== Proof.TileRun1.lean ====
/-
  One call of the tile kernel in the second pass (nearest candidate of every query), on whole staging buffers.

  The kernel keeps a running minimum `acc` in a scratch buffer.  At a grid point `(i, j)` it is handed a tile
  `a` of 512 query points and a tile `b` of 512 candidate points (4 batches, 3 coordinates each) and does

      if j = 0 then acc := +∞
      acc := min acc (tileMin a b)          -- tileMin a b [β, r] = min over the 512 candidates of the distance
      if j = 15 then out := acc

  so the call has three control cases: the row's first column (`j = 0`: the scratch is reset, then updated),
  a middle column (the scratch is updated), and the row's last column (`j = 15`: updated, then copied to the
  output tile).  No point is both first and last (the row has 16 columns).  In every case the two input tiles
  are read and handed back unchanged; the output tile is touched only in the last case.

  What the scratch holds afterwards is the store's payload `step a b s`, a pure function of the two tiles and of
  what the scratch held before (`s`); on a first column `s` is the constant tile `top` (every entry +∞).
-/
import proofs.«145489_j16003048145308_1_alg».proof.Proof.Gen.KernelIdeal.Launch
import proofs.«145489_j16003048145308_1_alg».proof.Proof.Gen.KernelIdeal.Skeleton
import proofs.«145489_j16003048145308_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two column tests -/

/-- "This is the row's first column": the kernel's own scalar chain for `j = 0`. -/
abbrev isFirst (i : grid1.Coords) : Prop :=
  (Scalar.cmpi .ne (Scalar.extui (Scalar.cmpi .eq (BitVec.ofNat 32 (i 1).val) 0#32)) 0#32) = 1#1
/-- "This is the row's last column": the kernel's own scalar chain for `j = 15`. -/
abbrev isLast (i : grid1.Coords) : Prop := k1_cond2 i = 1#1

/-- Over the 256 grid points in row-major order the first column is the points `≡ 0 (mod 16)`, -/
theorem isFirst_iff : ∀ t : Fin cfg1.N, isFirst (grid1.coords t) ↔ t.val % 16 = 0 :=
  (by decide +kernel : ∀ t : Fin grid1.N, isFirst (grid1.coords t) ↔ t.val % 16 = 0)
/-- and the last column the points `≡ 15 (mod 16)`. -/
theorem isLast_iff : ∀ t : Fin cfg1.N, isLast (grid1.coords t) ↔ t.val % 16 = 15 :=
  (by decide +kernel : ∀ t : Fin grid1.N, isLast (grid1.coords t) ↔ t.val % 16 = 15)

/-! ## The scratch update as a pure function -/

/-- The constant tile the scratch is reset to: every entry `+∞`. -/
abbrev top : Vec F S4x512 .f32 := k1_pay1 (F := F)
/-- What the scratch holds after the update: entrywise the minimum of what it held (`s`) and the tile minimum of
    the distances between the query tile `a` and the candidate tile `b`. -/
abbrev step (a b : Vec F S4x512x3 .f32) (s : Vec F S4x512 .f32) : Vec F S4x512 .f32 := k1_pay2 a b s

theorem zero2 : (![0, 0] : Fin 2 → Nat) = fun _ => 0 := by funext a; fin_cases a <;> rfl
theorem zero3 : (![0, 0, 0] : Fin 3 → Nat) = fun _ => 0 := by funext a; fin_cases a <;> rfl

/-- After a store through the whole-shape rectangle (made last), a buffer reads back as that store's payload,
    whatever was stored before and whatever the buffer held. -/
theorem read_store_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a)
    (p : S.Idx → Elt F e) (L : List (View.Piece (Elt F) S e)) :
    v.read (Elt F) (v.writes (Elt F) f ((⟨Rect.unit off S.size inb, p⟩ : View.Piece (Elt F) S e) :: L)) = p := by
  rw [View.read_writes_eq_canon v f _ (fun y => ⟨⟨Rect.unit off S.size inb, p⟩, List.mem_cons_self, View.mem_set_unit_zero h inb y⟩)]
  exact View.canon_cons_unit_zero h inb p L

/-! ## The three control cases -/

set_option maxHeartbeats 1000000 in
/-- A middle column: the scratch goes from `s` to `step a b s`; the output tile is handed back as found. -/
theorem run_middle (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hf : ¬isFirst i) (hl : ¬isLast i)
    (a b : Vec F S4x512x3 .f32) (o s : Vec F S4x512 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare o ∗ owns (c : Thread nD τ) arg5 fullShare (step a b s)) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hf | exact hl)
  sl_step
  iapply Hk
  isplitl [H0]; · iexists _; isplitr; · ipureintro; exact hf0
                  iexact H0
  isplitl [H1]; · iexists _; isplitr; · ipureintro; exact hf1
                  iexact H1
  isplitl [HO]; · iexists _; isplitr; · ipureintro; exact hfo
                  iexact HO
  iexists _; isplitr
  swap; · iexact HS
  ipureintro
  sl_unfold_words
  rw [read_store_whole _ _ zero2]
  simp only [View.readAt_eq_ld, harg2.read_unread, harg3.read_unread, harg5.read_unread, View.ld_unit_zero (S := S4x512x3) zero3, View.ld_unit_zero (S := S4x512) zero2]

set_option maxHeartbeats 1000000 in
/-- A first column: whatever the scratch held, it ends at `step a b top`; the output tile is handed back as found. -/
theorem run_first (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hf : isFirst i) (hl : ¬isLast i)
    (a b : Vec F S4x512x3 .f32) (o : Vec F S4x512 .f32) (E : Set ℕ) (K : PUnit → sProp 𝕄) :
    iprop(owns (c : Thread nD τ) arg2 fullShare a ∗ owns (c : Thread nD τ) arg3 fullShare b ∗ owns (c : Thread nD τ) arg4 fullShare o ∗ (∃ d, owns (c : Thread nD τ) arg5 fullShare d)
        ∗ (iprop(owns (c : Thread nD τ) arg2 fullShare a ∗ owns (c : Thread nD τ) arg3 fullShare b ∗ owns (c : Thread nD τ) arg4 fullShare o ∗ owns (c : Thread nD τ) arg5 fullShare (step a b top)) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%fo, %hfo, HO⟩, ⟨%ds, %fs, -, HS⟩, Hk⟩
  obtain rfl := harg2.eq_unread hf0; obtain rfl := harg3.eq_unread hf1; obtain rfl := harg4.eq_unread hfo
  sl_exec (disch := first | exact hf | exact hl)
  sl_step
  iapply Hk
  isplitl [H0]; · iexists _; isplitr; · ipureintro; exact hf0
                  iexact H0
  isplitl [H1]; · iexists _; isplitr; · ipureintro; exact hf1
                  iexact H1
  isplitl [HO]; · iexists _; isplitr; · ipureintro; exact hfo
                  iexact HO
  iexists _; isplitr
  swap; · iexact HS
  ipureintro
  sl_unfold_words
  rw [read_store_whole _ _ zero2]
  simp only [View.readAt_eq_ld, harg2.read_unread, harg3.read_unread, View.ld_unit_zero (S := S4x512x3) zero3, View.ld_unit_zero (S := S4x512) zero2, View.readCov_unit_zero (S := S4x512) _ zero2]

set_option maxHeartbeats 1000000 in
/-- A last column: the scratch goes from `s` to `step a b s`, and the output tile, whatever it held, ends at the same. -/
theorem run_last (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hf : ¬isFirst i) (hl : isLast i)
    (a b : Vec F S4x512x3 .f32) (s : Vec F S4x512 .f32) (E : Set ℕ) (K : PUnit → sProp 𝕄) :
    iprop(owns (c : Thread nD τ) arg2 fullShare a ∗ owns (c : Thread nD τ) arg3 fullShare b ∗ (∃ d, owns (c : Thread nD τ) arg4 fullShare d) ∗ owns (c : Thread nD τ) arg5 fullShare s
        ∗ (iprop(owns (c : Thread nD τ) arg2 fullShare a ∗ owns (c : Thread nD τ) arg3 fullShare b ∗ owns (c : Thread nD τ) arg4 fullShare (step a b s) ∗ owns (c : Thread nD τ) arg5 fullShare (step a b s)) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%do_, %fo, -, HO⟩, ⟨%fs, %hfs, HS⟩, Hk⟩
  obtain rfl := harg2.eq_unread hf0; obtain rfl := harg3.eq_unread hf1; obtain rfl := harg5.eq_unread hfs
  sl_exec (disch := first | exact hf | exact hl)
  sl_step
  iapply Hk
  isplitl [H0]; · iexists _; isplitr; · ipureintro; exact hf0
                  iexact H0
  isplitl [H1]; · iexists _; isplitr; · ipureintro; exact hf1
                  iexact H1
  isplitl [HO]
  · iexists _; isplitr
    swap; · iexact HO
    ipureintro
    sl_unfold_words
    rw [read_store_whole _ _ zero2]
    simp only [View.readAt_eq_ld, harg2.read_unread, harg3.read_unread, harg5.read_unread, View.ld_unit_zero (S := S4x512x3) zero3, View.ld_unit_zero (S := S4x512) zero2, View.readCov_unit_zero (S := S4x512) _ zero2]
  iexists _; isplitr
  swap; · iexact HS
  ipureintro
  sl_unfold_words
  rw [read_store_whole _ _ zero2]
  simp only [View.readAt_eq_ld, harg2.read_unread, harg3.read_unread, harg5.read_unread, View.ld_unit_zero (S := S4x512x3) zero3, View.ld_unit_zero (S := S4x512) zero2]

end Cert.KernelIdeal.Pass1

end
-- ==== Proof.ScratchSplit1.lean ====
/-
  The second pass's scratch among the core's scoped buffers.

  While the second pass runs, the scoped buffers that are none of its staging buffers are the seven buffers of
  the first pass (its six staging buffers and its scratch, all dead by now) and the second pass's own scratch
  (the running minimum).  The region's invariant holds all eight at unspecified contents; this file splits it into
  "the scratch, at some contents" and "the rest" (the other seven buffers and the generator register).
-/
import proofs.«145489_j16003048145308_1_alg».proof.Proof.TileRun1
import Idealize.ShloMosaic.Lib.Pipeline.Frame

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second pass's scratch buffer, whole. -/
abbrev scM : Memref sig .tc .vmem S4x512 .f32 := Memref.whole cc1_scratch0

/-- The scoped buffers the second pass never touches (the first pass's staging buffers and scratch), each at
    some contents, and the generator register at some state. -/
def rest (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))
    ∗ (∃ r, prngReg c r))

/-- The region's invariant gives the scratch at some contents beside the rest, -/
theorem PhiA_open (c : Dev nD) :
    (Pipeline.ΦA spec1 c : sProp 𝕄) ⊢ iprop((∃ d, owns (c : Thread nD τ) scM fullShare d) ∗ rest c) := by
  unfold Pipeline.ΦA rest; rw [scopedRest1_eq]; simp only [scM, owns_whole]
  iintro ⟨⟨H1, H2, H3, H4, H5, H6, H7, HS⟩, Hg⟩
  isplitl [HS]; · iexact HS
  isplitr [Hg]
  · isplitl [H1]; · iexact H1
    isplitl [H2]; · iexact H2
    isplitl [H3]; · iexact H3
    isplitl [H4]; · iexact H4
    isplitl [H5]; · iexact H5
    isplitl [H6]; · iexact H6
    iexact H7
  iexact Hg

/-- and is made of them. -/
theorem PhiA_close (c : Dev nD) :
    iprop((∃ d, owns (c : Thread nD τ) scM fullShare d) ∗ rest c) ⊢ (Pipeline.ΦA spec1 c : sProp 𝕄) := by
  unfold Pipeline.ΦA rest; rw [scopedRest1_eq]; simp only [scM, owns_whole]
  iintro ⟨HS, ⟨H1, H2, H3, H4, H5, H6, H7⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-- So the two are one assertion. -/
theorem PhiA_split (c : Dev nD) :
    (Pipeline.ΦA spec1 c : sProp 𝕄) = iprop((∃ d, owns (c : Thread nD τ) scM fullShare d) ∗ rest c) :=
  BI.equiv_iff.mp ⟨PhiA_open c, PhiA_close c⟩

end Cert.KernelIdeal.Pass1

end
-- ==== Proof.Carry1.lean ====
/-
  The second pass over its 16 × 16 grid: what the scratch and the output tile hold after every point.

  The grid is walked row by row (point `t` is row `t / 16`, column `t % 16`).  Row `i` holds the query tile `i`
  fixed and runs over the 16 candidate tiles.  The scratch after point `t` is the running minimum `carry t`:

      carry t = step (a-tile at t) (b-tile at t) top              if t is a row's first column
      carry t = step (a-tile at t) (b-tile at t) (carry (t-1))     otherwise

  and at a row's last column the output tile is set to `carry t` and written back; at every other column the
  output tile is left as found and not written back.  This file states that as the pipeline's proof data and
  proves the body obligation at every grid point from the three control cases of the kernel call.
-/
import proofs.«145489_j16003048145308_1_alg».proof.Proof.ScratchSplit1
import Idealize.ShloMosaic.Lib.Pipeline.FrameBody

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- Window `w`'s block at point `t`, read off its array as the pass finds it (`V`). -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile is in its staging buffer at every point of its row, although it is fetched only at the row's
    first column: the block index does not move along a row. -/
theorem before_a_of {c : Dev nD} (dat : Dat τ (Elt F) Unit ℕ (UR sig nD τ) ℕ cfg1 c) (hA : dat.A 0 = V c (Pipeline.arrRef spec1 0))
    (hafter : ∀ t, dat.after 0 t = tile V c 0 t) (t : Fin cfg1.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- The candidate tile is fetched at every point. -/
theorem before_b_of {c : Dev nD} (dat : Dat τ (Elt F) Unit ℕ (UR sig nD τ) ℕ cfg1 c) (hA : dat.A 1 = V c (Pipeline.arrRef spec1 1))
    (hafter : ∀ t, dat.after 1 t = tile V c 1 t) (t : Fin cfg1.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-! ## The running minimum -/

/-- What the scratch holds after the point at position `n`. -/
def carry (c : Dev nD) : (n : ℕ) → n < cfg1.N → Vec F S4x512 .f32
  | 0, hn => step (tile V c 0 ⟨0, hn⟩) (tile V c 1 ⟨0, hn⟩) top
  | n + 1, hn =>
    if (n + 1) % 16 = 0 then step (tile V c 0 ⟨n + 1, hn⟩) (tile V c 1 ⟨n + 1, hn⟩) top
    else step (tile V c 0 ⟨n + 1, hn⟩) (tile V c 1 ⟨n + 1, hn⟩) (carry c n (Nat.lt_of_succ_lt hn))

/-- At a row's first column the minimum restarts from `top`. -/
theorem carry_first (c : Dev nD) (t : Fin cfg1.N) (h : t.val % 16 = 0) :
    carry V c t.val t.isLt = step (tile V c 0 t) (tile V c 1 t) top := by
  obtain ⟨n, hn⟩ := t
  cases n with
  | zero => rfl
  | succ n => exact if_pos h

/-- At any other column it continues from the point before. -/
theorem carry_next (c : Dev nD) (t : Fin cfg1.N) (h : ¬t.val % 16 = 0) :
    carry V c t.val t.isLt = step (tile V c 0 t) (tile V c 1 t) (carry V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- Before the first point the region's own invariant (every scoped buffer at anything); after the point at
    position `n` the scratch at `carry n` beside the rest. -/
def inv (c : Dev nD) : (n : ℕ) → n ≤ cfg1.N → sProp 𝕄
  | 0, _ => Pipeline.ΦA spec1 c
  | n + 1, hn => iprop(owns (c : Thread nD τ) scM fullShare (carry V c n hn) ∗ rest c)

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(owns (c : Thread nD τ) scM fullShare (carry V c n hn) ∗ rest c) := rfl
theorem inv_pos (c : Dev nD) (n : ℕ) (h : n ≤ cfg1.N) (hz : n ≠ 0) :
    inv V c n h = iprop(owns (c : Thread nD τ) scM fullShare (carry V c (n - 1) (by omega)) ∗ rest c) := by
  cases n with
  | zero => exact absurd rfl hz
  | succ n => rfl

/-! ## The proof data -/

/-- The pass's proof data on core `c`: its arrays as it finds them; after the body at point `t` the two input
    tiles unchanged and the output tile at the running minimum (consulted only at a row's last column); the
    invariant above; nothing owed; full shares. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => carry V c t.val t.isLt
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]
theorem inv_castSucc (c : Dev nD) (t : Fin cfg1.N) :
    (dat V c).Φ t.castSucc = inv V c t.val (Nat.le_of_lt t.isLt) := by
  dsimp only [dat]; simp only [Fin.coe_castSucc]
theorem after_a (c : Dev nD) (t : Fin cfg1.N) : (dat V c).after 0 t = tile V c 0 t := by dsimp only [dat]
theorem after_b (c : Dev nD) (t : Fin cfg1.N) : (dat V c).after 1 t = tile V c 1 t := by dsimp only [dat]
theorem after_out (c : Dev nD) (t : Fin cfg1.N) : (dat V c).after 2 t = carry V c t.val t.isLt := by dsimp only [dat]
theorem before_a (c : Dev nD) (t : Fin cfg1.N) (d) : (dat V c).before 0 t d = tile V c 0 t :=
  before_a_of V (dat V c) (A_eq V c 0) (after_a V c) t d
theorem before_b (c : Dev nD) (t : Fin cfg1.N) (d) : (dat V c).before 1 t d = tile V c 1 t :=
  before_b_of V (dat V c) (A_eq V c 1) (after_b V c) t d

/-! ## Where the windows are idle -/

theorem live_a : ∀ t : Fin cfg1.N, cfg1.idle 0 (grid1.coords t) = false := by decide +kernel
theorem live_b : ∀ t : Fin cfg1.N, cfg1.idle 1 (grid1.coords t) = false := by decide +kernel
/-- Off a row's last column the output tile is idle and not written back; -/
theorem idle_out : ∀ t : Fin cfg1.N, ¬isLast (grid1.coords t) → cfg1.idle 2 (grid1.coords t) = true := by decide +kernel
theorem noFlush_out : ∀ t : Fin cfg1.N, ¬isLast (grid1.coords t) → (cfg1.win 2).flush t = false := by decide +kernel
/-- on it, it is stored. -/
theorem live_out : ∀ t : Fin cfg1.N, isLast (grid1.coords t) → cfg1.idle 2 (grid1.coords t) = false := by decide +kernel

/-! ## The body obligation -/

/-- Each window's current staging memref at point `t`, as the pipeline passes it to the kernel. -/
abbrev ms_a (t : Fin cfg1.N) : Memref sig .tc .vmem S4x512x3 .f32 := win1_0.stage (cfg1.slots t 0)
abbrev ms_b (t : Fin cfg1.N) : Memref sig .tc .vmem S4x512x3 .f32 := win1_1.stage (cfg1.slots t 1)
abbrev ms_out (t : Fin cfg1.N) : Memref sig .tc .vmem S4x512 .f32 := win1_2.stage (cfg1.slots t 2)

def bodyPre (c : Dev nD) (t : Fin cfg1.N) : sProp 𝕄 :=
  iprop((dat V c).Φ t.castSucc ∗ (dat V c).owesAt () t.castSucc
    ∗ (∃ d, owns (c : Thread nD τ) (ms_a t) fullShare ((dat V c).before 0 t d))
    ∗ (∃ d, owns (c : Thread nD τ) (ms_b t) fullShare ((dat V c).before 1 t d))
    ∗ (∃ d, owns (c : Thread nD τ) (ms_out t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the column decides the control case; the invariant hands over the scratch (at anything
    before the first point, at the point before's running minimum afterwards) and takes it back at this point's. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_a, before_b]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms_a t) fullShare ((dat V c).after 0 t) from by
    unfold Dat.leavesExact; rw [live_a t], after_a]
  rw [show (dat V c).leavesExact 1 t = owns (c : Thread nD τ) (ms_b t) fullShare ((dat V c).after 1 t) from by
    unfold Dat.leavesExact; rw [live_b t], after_b]
  have hN : t.val < 256 := lt_of_lt_of_eq t.isLt (show cfg1.N = 256 from N_1)
  rw [inv_castSucc V c t]
  by_cases hf : t.val % 16 = 0
  · have hl : ¬t.val % 16 = 15 := by omega
    have hnl : ¬isLast (grid1.coords t) := fun h => hl ((isLast_iff t).mp h)
    rw [Dat.leavesExact_idle (dat V c) 2 t (idle_out t hnl) (noFlush_out t hnl), carry_first V c t hf]
    by_cases hz : t.val = 0
    · rw [inv_zero V c _ _ hz, PhiA_split]
      iintro ⟨⟨HS, Hr⟩, Ho, ⟨%d0, H0⟩, ⟨%d1, H1⟩, ⟨%d2, H2⟩⟩
      iapply (run_first c (grid1.coords t) _ _ _ _ _ _ _ _ ((isFirst_iff t).mpr hf) hnl (tile V c 0 t) (tile V c 1 t) ((dat V c).before 2 t d2) Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2
    · rw [inv_pos V c _ _ hz]
      iintro ⟨⟨HS, Hr⟩, Ho, ⟨%d0, H0⟩, ⟨%d1, H1⟩, ⟨%d2, H2⟩⟩
      iapply (run_first c (grid1.coords t) _ _ _ _ _ _ _ _ ((isFirst_iff t).mpr hf) hnl (tile V c 0 t) (tile V c 1 t) ((dat V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2
  · have hz : t.val ≠ 0 := fun h => hf (by rw [h])
    have hnf : ¬isFirst (grid1.coords t) := fun h => hf ((isFirst_iff t).mp h)
    rw [inv_pos V c _ _ hz, carry_next V c t hf]
    by_cases hl : t.val % 16 = 15
    · have hil : isLast (grid1.coords t) := (isLast_iff t).mpr hl
      rw [show (dat V c).leavesExact 2 t = owns (c : Thread nD τ) (ms_out t) fullShare ((dat V c).after 2 t) from by
        unfold Dat.leavesExact; rw [live_out t hil], after_out, carry_next V c t hf]
      iintro ⟨⟨HS, Hr⟩, Ho, ⟨%d0, H0⟩, ⟨%d1, H1⟩, ⟨%d2, H2⟩⟩
      iapply (run_last c (grid1.coords t) _ _ _ _ _ _ _ _ hnf hil (tile V c 0 t) (tile V c 1 t) (carry V c (t.val - 1) _) Set.univ _)
      isplitl [H0]; · iexact H0
      isplitl [H1]; · iexact H1
      isplitl [H2]; · iexists _; iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexact H2
    · have hnl : ¬isLast (grid1.coords t) := fun h => hl ((isLast_iff t).mp h)
      rw [Dat.leavesExact_idle (dat V c) 2 t (idle_out t hnl) (noFlush_out t hnl)]
      iintro ⟨⟨HS, Hr⟩, Ho, ⟨%d0, H0⟩, ⟨%d1, H1⟩, ⟨%d2, H2⟩⟩
      iapply (run_middle c (grid1.coords t) _ _ _ _ _ _ _ _ hnf hnl (tile V c 0 t) (tile V c 1 t) ((dat V c).before 2 t d2) (carry V c (t.val - 1) _) Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = inv V c 0 (Nat.zero_le _) from rfl, inv_zero V c 0 _ rfl]

/-- After the last point the invariant gives the region's own back: the scratch's contents are forgotten. -/
theorem hout (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 256 := N_1; omega), PhiA_split]
  iintro ⟨HS, Hr⟩
  isplitl [HS]; · iexists _; iexact HS
  iexact Hr

end Cert.KernelIdeal.Pass1

end
-- ==== Proof.Program.lean ====
/-
  The whole program: the two passes one after the other, then the two means and their sum.

  @main is three items: the first pass (queries `points1` against candidates `points2`, result `main_v0`), the
  second pass (the same kernel with the point sets exchanged, result `main_v1`), and nine host operations (each
  result summed over all its entries, divided by 32768, the two quotients added).  This file follows the contents
  of the core's buffers through the three items:

      W0 = the launch memory
      W1 = W0 with the first pass's arrays at what its write-backs leave
      W2 = W1 with the second pass's arrays at what its write-backs leave
      W3 = W2 after the nine host operations

  and proves that every weakly fair execution terminates with every unscoped buffer at `W3`.  Each pass is a
  segment entered from "all unscoped buffers at the contents before it, the generator register somewhere, nothing
  owed" and left at the same with the contents after it; a pass's arrays are split out of the unscoped buffers at
  its entry and put back at its exit, and its invariant is the region's own at both ends (the scratch's contents
  are tracked only inside the pass).
-/
import proofs.«145489_j16003048145308_1_alg».proof.Proof.Carry0
import proofs.«145489_j16003048145308_1_alg».proof.Proof.Carry1
import Idealize.ShloMosaic.Lib.Pipeline.FrameBody
import Idealize.ShloMosaic.Lib.Pipeline.RegionsLoop
import Idealize.ShloMosaic.Lib.Pipeline.FrameSuffix
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- At launch. -/
abbrev W0 : Dev nD → Valuation τ sig (Elt F) := fun c b => m (c, b)
/-- The same read at the TensorCore's references: what the first pass's proof data take. -/
abbrev V0 : (c : Dev nD) → (b : Ref sig .tc) → Buf (Elt F) ((c : Thread nD τ).loc b) := fun c b => W0 m c b
/-- After the first pass. -/
def W1 (c : Dev nD) : Valuation τ sig (Elt F) :=
  Pipeline.withArrays spec0 c (W0 m c) fun w => (Pass0.dat (V0 m) c).arrAt w cfg0.N
theorem W1_arr (c : Dev nD) (w : Fin cfg0.W) :
    W1 m c (Proc.devRef .tc (Pipeline.arrRef spec0 w)) = (Pass0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Pass0.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second pass. -/
def W2 (c : Dev nD) : Valuation τ sig (Elt F) :=
  Pipeline.withArrays spec1 c (W1 m c) fun w => (Pass1.dat (V1 m) c).arrAt w cfg1.N
theorem W2_arr (c : Dev nD) (w : Fin cfg1.W) :
    W2 m c (Proc.devRef .tc (Pipeline.arrRef spec1 w)) = (Pass1.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (Pass1.dat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host operations. -/
abbrev W3 : Dev nD → Valuation τ sig (Elt F) := fun c => StableHlo.after hostOps2 (W2 m c)

/-! ## The proof data family and the thread state -/

abbrev adm : (p : Fin 2) → (pcfgs (F := F) p).Adm := fun p => (cfgs p).toPCfg_adm
/-- Both passes' proof data, each at its entry contents (a literal match on the pipeline's number). -/
def pdats : (p : Fin 2) → (c : Dev nD) → Dat τ (Elt F) Unit ℕ (UR sig nD τ) ℕ (Pipeline.pin (pcfgs (F := F)) adm p) c
  | ⟨0, _⟩ => fun c => Pass0.dat (V0 m) c
  | ⟨1, _⟩ => fun c => Pass1.dat (V1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host operations as a segment over the unscoped buffers from `W2`. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-! ## The two passes as segments -/

set_option backward.isDefEq.respectTransparency.types false in
/-- The first pass: entered from every unscoped buffer at `W0`, left at `W1`. -/
def pass0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pass0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Pass0.hout (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass: entered from every unscoped buffer at `W1`, left at `W2`. -/
def pass1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pass1.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Pass1.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (pass0 m), .region (pass1 m), .host (hostSeg m) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    final memory holds every unscoped buffer at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W3 m c))
    (hch := ⟨fun _ => .rfl, fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨Hh, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## What the last boundary holds: the arguments as launched, the result as the means' sum -/

/-- No host operation writes an argument. -/
theorem hostOps2_keeps (b : Ref sig .tc) (hb : b = main_arg0 ∨ b = main_arg1 ∨ b = main_v0 ∨ b = main_v1) :
    ∀ op ∈ (hostOps2 : List (HloOp τ sig (Elt F))), Proc.devRef .tc b ∉ op.writes := by
  refine List.forall_iff_forall_mem.mp ?_
  simp only [hostOps2, List.Forall, StableHlo.nullary_writes, StableHlo.binary_writes, Finset.mem_singleton]
  rcases hb with rfl | rfl | rfl | rfl
  all_goals (repeat' apply And.intro) <;> exact StableHlo.devRef_ne_of_ne (by decide)

/-- The first point set ends as launched: the host operations do not write it, and each pass only reads it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (hostOps2_keeps main_arg0 (.inl rfl))
    _ = W1 m c (Proc.devRef .tc main_arg0) := (W2_arr m c 1).trans (((Pass1.dat (V1 m) c).arrAt_in 1 rfl _).trans (Pass1.A_eq (V1 m) c 1))
    _ = W0 m c (Proc.devRef .tc main_arg0) := (W1_arr m c 0).trans (((Pass0.dat (V0 m) c).arrAt_in 0 rfl _).trans (Pass0.A_eq (V0 m) c 0))
    _ = m ((c : Thread nD τ).loc main_arg0) := rfl

/-- So does the second. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (hostOps2_keeps main_arg1 (.inr (.inl rfl)))
    _ = W1 m c (Proc.devRef .tc main_arg1) := (W2_arr m c 0).trans (((Pass1.dat (V1 m) c).arrAt_in 0 rfl _).trans (Pass1.A_eq (V1 m) c 0))
    _ = W0 m c (Proc.devRef .tc main_arg1) := (W1_arr m c 1).trans (((Pass0.dat (V0 m) c).arrAt_in 1 rfl _).trans (Pass0.A_eq (V0 m) c 1))
    _ = m ((c : Thread nD τ).loc main_arg1) := rfl

/-- The second pass finds the two point sets as launched (the first pass only read them). -/
theorem V1_main_arg0 (c : Dev nD) : V1 m c main_arg0 = m ((c : Thread nD τ).loc main_arg0) :=
  (W1_arr m c 0).trans (((Pass0.dat (V0 m) c).arrAt_in 0 rfl _).trans (Pass0.A_eq (V0 m) c 0))
theorem V1_main_arg1 (c : Dev nD) : V1 m c main_arg1 = m ((c : Thread nD τ).loc main_arg1) :=
  (W1_arr m c 1).trans (((Pass0.dat (V0 m) c).arrAt_in 1 rfl _).trans (Pass0.A_eq (V0 m) c 1))

/-- The second pass does not touch the first pass's result. -/
theorem W2_main_v0 (c : Dev nD) : W2 m c (Proc.devRef .tc main_v0) = (Pass0.dat (V0 m) c).arrAt 2 cfg0.N :=
  (W2_of_ne m c main_v0 (by decide)).trans (W1_arr m c 2)
theorem W2_main_v1 (c : Dev nD) : W2 m c (Proc.devRef .tc main_v1) = (Pass1.dat (V1 m) c).arrAt 2 cfg1.N :=
  W2_arr m c 2

/-- The host operations after the two passes, as one function of the two result arrays: each summed over all its
    entries and divided by 32768, the two quotients added. -/
def meansSum (u v : (⟨S4x8192, .f32⟩ : BufTy).Contents (Elt F)) : (⟨S_, .f32⟩ : BufTy).Contents (Elt F) :=
  addf (Host.divf (Host.reduceAdd u (constant (F := F) S_ .f32 0x00000000#32) Facts₀.reducesTo_S4x8192_S_d0_1 Facts₀.h_S_) (constant (F := F) S_ .f32 0x47000000#32))
    (Host.divf (Host.reduceAdd v (constant (F := F) S_ .f32 0x00000000#32) Facts₀.reducesTo_S4x8192_S_d0_1 Facts₀.h_S_) (constant (F := F) S_ .f32 0x47000000#32))

/-- The program's result is that function of what the two passes left. -/
theorem W3_main_v6 (c : Dev nD) :
    W3 m c (Proc.devRef .tc main_v6) = meansSum (W2 m c (Proc.devRef .tc main_v0)) (W2 m c (Proc.devRef .tc main_v1)) := by
  show StableHlo.after hostOps2 (W2 m c) (Proc.devRef .tc main_v6) = _
  after_results
  rfl

end Cert.KernelIdeal.Whole

end
-- ==== Proof.PairDist.lean ====
/-
  The point-to-point distance both programs compute, and the nearest-neighbour distance built from it.

  For two points `p q` of three coordinates (extended reals) both the kernel and the reference evaluate

      dist p q = √ max( (|p|² + |q|²) − 2·⟨p, q⟩ , 0 )

  with `|p|² = Σ_k p_k·p_k`, `⟨p, q⟩ = Σ_k p_k·q_k`, the literal `2` the same binary word on both sides (kept as
  its word: it is never evaluated) and the `0` inside `max` the zero word's value.  The first pass takes the
  minimum over the candidates `q` for each query `p`; the second pass is the same kernel with the two point sets
  exchanged, so it evaluates `dist q p`; the two agree because `+` and `·` on the extended reals are commutative
  (no cancellation is involved, so finiteness is not needed).
-/
import Idealize.ShloMosaic.PureOps.Ideal
import Idealize.ShloMosaic.PureOps.Ideal.Laws
import Idealize.ShloMosaic.Lib.ValueIdx

noncomputable section

open scoped BigOperators

namespace Cert.Chamfer

open Idealize.ShloMosaic

/-- `√ max((|p|² + |q|²) − 2·⟨p,q⟩, 0)` on the extended reals. -/
def dist (p q : Fin 3 → EReal) : EReal :=
  Ideal.sqrt (max (((∑ k, p k * p k) + ∑ k, q k * q k) - Ideal.ofBits .f32 0x40000000#32 * ∑ k, p k * q k) 0)

/-- The distance is symmetric: the two squared norms commute under `+`, the products under `·`. -/
theorem dist_comm (p q : Fin 3 → EReal) : dist p q = dist q p := by
  have h : (∑ k, p k * q k) = ∑ k, q k * p k := Finset.sum_congr rfl fun k _ => mul_comm _ _
  unfold dist
  rw [h, add_comm (∑ k, p k * p k) (∑ k, q k * q k)]

/-- The distance from `p` to the nearest of the `M` points `Q` (`+∞` for no point). -/
def nearest {M : Nat} (p : Fin 3 → EReal) (Q : Fin M → Fin 3 → EReal) : EReal :=
  Finset.univ.inf fun m => dist p (Q m)

end Cert.Chamfer

end
-- ==== Proof.TileMin.lean ====
/-
  The kernel's scratch update, read at one entry, at the ideal instance.

  `step a b s` (the skeleton's `k0_pay2`) is entrywise `min s (tile minimum)`, and the tile minimum at entry
  `[β, r]` is the minimum over the tile's 512 candidates `m` of the distance between query `a[β, r, ·]` and
  candidate `b[β, m, ·]`:  the two row sums of squares, the batched product `Σ_k a[β,r,k]·b[β,m,k]` (the matrix
  unit's product into a zero accumulator; the change to bf16 is the identity on the extended reals), the broadcasts
  to the 4 × 512 × 512 table, `max(·, 0)`, the square root, and the lane minimum from `+∞`.
  `top` (the skeleton's `k0_pay1`) is `+∞` at every entry.  The second pass's payloads are the same terms.
-/
import proofs.«145489_j16003048145308_1_alg».proof.Proof.Gen.KernelIdeal.Skeleton
import proofs.«145489_j16003048145308_1_alg».proof.Proof.PairDist
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.KernelIdeal.TileValue

open Cert.KernelIdeal Cert.KernelIdeal.Gen Idealize.ShloMosaic Idealize.ShloMosaic.ValueIdx

/-! ### The column `[4,512] → [4,512,1]` and the row `[4,512] → [4,1,512]`, and their broadcasts to `[4,512,512]`

Entry `[β, r, m]` of the broadcast column is entry `[β, r]` of the operand; of the broadcast row, entry `[β, m]`. -/

private theorem castCol_apply {α : Type} (v : S4x512.Idx → α) (β : Fin 4) (r : Fin 512) (u : Fin 1) :
    shapeCast S4x512x1 v shapeCasts_S4x512_S4x512x1 (ix3 β r u) = v (ix2 β r) :=
  shapeCast_apply v shapeCasts_S4x512_S4x512x1 (ix3 β r u) (ix2 β r) (by
    have hu : u.val = 0 := by omega
    rw [Shape.rowMajor_val_three, Shape.rowMajor_val_two]
    show β.val * 512 + r.val = (β.val * 512 + r.val) * 1 + u.val
    rw [hu, Nat.mul_one, Nat.add_zero])

private theorem castRow_apply {α : Type} (v : S4x512.Idx → α) (β : Fin 4) (u : Fin 1) (m : Fin 512) :
    shapeCast S4x1x512 v shapeCasts_S4x512_S4x1x512 (ix3 β u m) = v (ix2 β m) :=
  shapeCast_apply v shapeCasts_S4x512_S4x1x512 (ix3 β u m) (ix2 β m) (by
    have hu : u.val = 0 := by omega
    rw [Shape.rowMajor_val_three, Shape.rowMajor_val_two]
    show β.val * 512 + m.val = (β.val * 1 + u.val) * 512 + m.val
    rw [hu, Nat.mul_one, Nat.add_zero])

private theorem bcastCol_apply {α : Type} (w : S4x512x1.Idx → α) (β : Fin 4) (r m : Fin 512) :
    broadcastTo S4x512x512 w broadcasts_S4x512x1_S4x512x512 (ix3 β r m) = w (ix3 β r (0 : Fin 1)) :=
  broadcastTo_apply w broadcasts_S4x512x1_S4x512x512 (ix3 β r m) (ix3 β r (0 : Fin 1)) fun ax => match ax with
    | ⟨0, _⟩ => by show β.val = if (4 : Nat) = 1 then 0 else β.val; rw [if_neg (by decide)]
    | ⟨1, _⟩ => by show r.val = if (512 : Nat) = 1 then 0 else r.val; rw [if_neg (by decide)]
    | ⟨2, _⟩ => by show 0 = if (1 : Nat) = 1 then 0 else m.val; rw [if_pos rfl]

private theorem bcastRow_apply {α : Type} (w : S4x1x512.Idx → α) (β : Fin 4) (r m : Fin 512) :
    broadcastTo S4x512x512 w broadcasts_S4x1x512_S4x512x512 (ix3 β r m) = w (ix3 β (0 : Fin 1) m) :=
  broadcastTo_apply w broadcasts_S4x1x512_S4x512x512 (ix3 β r m) (ix3 β (0 : Fin 1) m) fun ax => match ax with
    | ⟨0, _⟩ => by show β.val = if (4 : Nat) = 1 then 0 else β.val; rw [if_neg (by decide)]
    | ⟨1, _⟩ => by show 0 = if (1 : Nat) = 1 then 0 else r.val; rw [if_pos rfl]
    | ⟨2, _⟩ => by show m.val = if (512 : Nat) = 1 then 0 else m.val; rw [if_neg (by decide)]

/-! ### The row sum of squares: `Σ_k x[β,r,k]·x[β,r,k]` (the sum's accumulator word is zero, the sum's neutral element) -/

private theorem rowSq_apply (x : FVec Ideal S4x512x3 .f32) (hφ : FKind.Formats .f32)
    (hacc : (0x00000000#32 : BitVec 32) = 0x00000000#32) (β : Fin 4) (r : Fin 512) :
    multiReduction .add [2] S4x512 (mulf x x) 0x00000000#32 reduces_S4x512x3_S4x512 hφ hacc (ix2 β r)
      = ∑ k : Fin 3, x (ix3 β r k) * x (ix3 β r k) := by
  refine (Ideal.multiReduction_add_single (mulf x x) 0x00000000#32 reduces_S4x512x3_S4x512 hφ hacc (ix2 β r)).trans ?_
  refine Finset.sum_congr rfl fun k _ => ?_
  have e : reduces_S4x512x3_S4x512.lift (ix2 β r) k = ix3 β r k :=
    funext fun c => Fin.ext (by match c with | ⟨0, _⟩ => rfl | ⟨1, _⟩ => rfl | ⟨2, _⟩ => rfl)
  rw [e]
  rfl

/-! ### The lane minimum from `+∞`: at `[β, r]` the infimum over `m` of the table's entries `[β, r, m]` -/

private theorem laneMin_apply (T : FVec Ideal S4x512x512 .f32) (hφ : FKind.Formats .f32)
    (hacc : (0x7F800000#32 : BitVec 32) = 0x7F800000#32) (β : Fin 4) (r : Fin 512) :
    multiReduction .minimumf [2] S4x512 T 0x7F800000#32 reduces_S4x512x512_S4x512 hφ hacc (ix2 β r)
      = Finset.univ.inf fun m : Fin 512 => T (ix3 β r m) := by
  refine (multiReduction_minimumf_eq_fold T 0x7F800000#32 reduces_S4x512x512_S4x512 hφ hacc (ix2 β r)).trans ?_
  refine (reduces_S4x512x512_S4x512.fold_filter_drop_single _ _ T (ix2 β r)).trans ?_
  have htop : (FloatOps.ofBits (F := Ideal) .f32 0x7F800000#32 : EReal) = ⊤ := by
    show Ideal.ofBits .f32 0x7F800000#32 = ⊤
    simp [Ideal.ofBits, Ideal.ieee]
  have hfun : (T ∘ reduces_S4x512x512_S4x512.lift (ix2 β r)) = fun m : Fin 512 => T (ix3 β r m) :=
    funext fun m => congrArg T (funext fun c => Fin.ext (by
      match c with | ⟨0, _⟩ => rfl | ⟨1, _⟩ => rfl | ⟨2, _⟩ => rfl))
  rw [htop, hfun]
  rfl

/-! ### The batched product into the zero accumulator: `Σ_k x[β,r,k]·y[β,m,k]`

The left operand's index at output `[β, r, m]` and contraction coordinate `k` is `[β, r, k]`, the right one's `[β, m, k]`:
one lemma per axis (batch, free, contracted), then the sum re-indexed over the one contracted axis. -/

private theorem mmL0 (i : S4x512x512.Idx) (q : dot_S4x512x3_S4x512x3_S4x512x512_2_2_1_1_0_0.contr.Idx) :
    (dot_S4x512x3_S4x512x3_S4x512x512_2_2_1_1_0_0.lhsIdx i q 0).val = (i 0).val := by
  unfold DotDims.lhsIdx
  rw [dif_pos (show (0 : Fin S4x512x3.rank) ∈ dot_S4x512x3_S4x512x3_S4x512x512_2_2_1_1_0_0.lhsBatch by decide)]
  rfl
private theorem mmL1 (i : S4x512x512.Idx) (q : dot_S4x512x3_S4x512x3_S4x512x512_2_2_1_1_0_0.contr.Idx) :
    (dot_S4x512x3_S4x512x3_S4x512x512_2_2_1_1_0_0.lhsIdx i q 1).val = (i 1).val := by
  unfold DotDims.lhsIdx
  rw [dif_neg (show ¬(1 : Fin S4x512x3.rank) ∈ dot_S4x512x3_S4x512x3_S4x512x512_2_2_1_1_0_0.lhsBatch by decide),
    dif_pos (show (1 : Fin S4x512x3.rank) ∈ dot_S4x512x3_S4x512x3_S4x512x512_2_2_1_1_0_0.lhsNonContracting by decide)]
  rfl
private theorem mmL2 (i : S4x512x512.Idx) (q : dot_S4x512x3_S4x512x3_S4x512x512_2_2_1_1_0_0.contr.Idx) :
    (dot_S4x512x3_S4x512x3_S4x512x512_2_2_1_1_0_0.lhsIdx i q 2).val = (q ⟨0, by decide⟩).val :=
  dot_S4x512x3_S4x512x3_S4x512x512_2_2_1_1_0_0.lhsIdx_val_of_single rfl i q
private theorem mmR0 (i : S4x512x512.Idx) (q : dot_S4x512x3_S4x512x3_S4x512x512_2_2_1_1_0_0.contr.Idx) :
    (dot_S4x512x3_S4x512x3_S4x512x512_2_2_1_1_0_0.rhsIdx i q 0).val = (i 0).val := by
  unfold DotDims.rhsIdx
  rw [dif_pos (show (0 : Fin S4x512x3.rank) ∈ dot_S4x512x3_S4x512x3_S4x512x512_2_2_1_1_0_0.rhsBatch by decide)]
  rfl
private theorem mmR1 (i : S4x512x512.Idx) (q : dot_S4x512x3_S4x512x3_S4x512x512_2_2_1_1_0_0.contr.Idx) :
    (dot_S4x512x3_S4x512x3_S4x512x512_2_2_1_1_0_0.rhsIdx i q 1).val = (i 2).val := by
  unfold DotDims.rhsIdx
  rw [dif_neg (show ¬(1 : Fin S4x512x3.rank) ∈ dot_S4x512x3_S4x512x3_S4x512x512_2_2_1_1_0_0.rhsBatch by decide),
    dif_pos (show (1 : Fin S4x512x3.rank) ∈ dot_S4x512x3_S4x512x3_S4x512x512_2_2_1_1_0_0.rhsNonContracting by decide)]
  rfl
private theorem mmR2 (i : S4x512x512.Idx) (q : dot_S4x512x3_S4x512x3_S4x512x512_2_2_1_1_0_0.contr.Idx) :
    (dot_S4x512x3_S4x512x3_S4x512x512_2_2_1_1_0_0.rhsIdx i q 2).val = (q ⟨0, by decide⟩).val :=
  dot_S4x512x3_S4x512x3_S4x512x512_2_2_1_1_0_0.rhsIdx_val_of_single rfl i q

private theorem mm_apply (x y : FVec Ideal S4x512x3 .bf16) (β : Fin 4) (r m : Fin 512) :
    matmul dot_S4x512x3_S4x512x3_S4x512x512_2_2_1_1_0_0 none x y (constant (F := Ideal) S4x512x512 .f32 0x00000000#32) (ix3 β r m)
      = ∑ k : Fin 3, x (ix3 β r k) * y (ix3 β m k) := by
  simp only [matmul]
  rw [Ideal.matmul_constant_zero_apply,
    ← Equiv.sum_comp (ValueIdx.contrEquiv1 dot_S4x512x3_S4x512x3_S4x512x512_2_2_1_1_0_0 3 rfl rfl).symm]
  refine Finset.sum_congr rfl fun k _ => ?_
  have hk := ValueIdx.contrEquiv1_symm_val dot_S4x512x3_S4x512x3_S4x512x512_2_2_1_1_0_0 3 rfl rfl k
  have el : dot_S4x512x3_S4x512x3_S4x512x512_2_2_1_1_0_0.lhsIdx (ix3 β r m)
      ((ValueIdx.contrEquiv1 dot_S4x512x3_S4x512x3_S4x512x512_2_2_1_1_0_0 3 rfl rfl).symm k) = ix3 β r k :=
    funext fun a => Fin.ext (by
      match a with
      | ⟨0, _⟩ => exact mmL0 _ _
      | ⟨1, _⟩ => exact mmL1 _ _
      | ⟨2, _⟩ => exact (mmL2 _ _).trans hk)
  have er : dot_S4x512x3_S4x512x3_S4x512x512_2_2_1_1_0_0.rhsIdx (ix3 β r m)
      ((ValueIdx.contrEquiv1 dot_S4x512x3_S4x512x3_S4x512x512_2_2_1_1_0_0 3 rfl rfl).symm k) = ix3 β m k :=
    funext fun a => Fin.ext (by
      match a with
      | ⟨0, _⟩ => exact mmR0 _ _
      | ⟨1, _⟩ => exact mmR1 _ _
      | ⟨2, _⟩ => exact (mmR2 _ _).trans hk)
  rw [el, er]

/-- The square root of a vector, read at an index. -/
private theorem sqrt_apply {s : Shape} {φ : FTy} (x : FVec Ideal s φ) (i : s.Idx) : sqrt x i = Ideal.sqrt (x i) := rfl

/-- The reset tile is `+∞` everywhere. -/
theorem top_apply (y : S4x512.Idx) : (k0_pay1 (F := Ideal)) y = (⊤ : EReal) := by
  unfold k0_pay1
  rw [shapeCast_self]
  show Ideal.ofBits .f32 0x7F800000#32 = ⊤
  simp [Ideal.ofBits, Ideal.ieee]

/-- The scratch update at entry `[β, r]`: the old entry against the nearest of the tile's 512 candidates. -/
theorem step_apply (a b : Vec Ideal S4x512x3 .f32) (s : Vec Ideal S4x512 .f32) (β : Fin 4) (r : Fin 512) :
    k0_pay2 (F := Ideal) a b s (ix2 β r)
      = min (s (ix2 β r)) (Cert.Chamfer.nearest (fun d => a (ix3 β r d)) (fun (m : Fin 512) d => b (ix3 β m d))) := by
  unfold k0_pay2
  rw [shapeCast_self, minimumf_apply, laneMin_apply]
  unfold Cert.Chamfer.nearest
  refine congrArg (min (s (ix2 β r))) (congrArg (Finset.inf Finset.univ) (funext fun m => ?_))
  -- entry [β, r, m] of the table: √ max((|a[β,r]|² + |b[β,m]|²) − 2·⟨a[β,r], b[β,m]⟩, 0)
  rw [sqrt_apply, maximumf_apply, subf_apply, addf_apply, mulf_apply, broadcast_apply, broadcast_apply,
    bcastCol_apply, castCol_apply, rowSq_apply, bcastRow_apply, castRow_apply, rowSq_apply, mm_apply]
  have h0 : (FloatOps.ofBits (F := Ideal) .f32 0x00000000#32 : EReal) = 0 := Ideal.ofBits_zero_f32
  rw [h0]
  rfl

/-- The second pass's kernel is the same function: its payloads are the same terms. -/
theorem top_same : k1_pay1 (F := Ideal) = k0_pay1 (F := Ideal) := rfl
theorem step_same : k1_pay2 (F := Ideal) = k0_pay2 (F := Ideal) := rfl

end Cert.KernelIdeal.TileValue

end
-- ==== Proof.MinBlocks.lean ====
/-
  The infimum over 8192 indices, taken 512 at a time.

  `infBelow k f` is the infimum of `f` over the indices below `k` (`+∞` for `k = 0`).  Taking in the next block
  of 512 indices is one `min` with that block's infimum, and after 16 blocks every index is in.
-/
import proofs.«145489_j16003048145308_1_alg».proof.Proof.PairDist

noncomputable section

namespace Cert.Chamfer

/-- Index `m'` of block `j` (for `j < 16` the number `512·j + m'`; reduced mod 8192 so that it is an index whatever `j`). -/
def blk (j : ℕ) (m' : Fin 512) : Fin 8192 := ⟨(512 * j + m'.val) % 8192, Nat.mod_lt _ (by norm_num)⟩

theorem blk_val (j : ℕ) (hj : j < 16) (m' : Fin 512) : (blk j m').val = 512 * j + m'.val := by
  have := m'.isLt
  show (512 * j + m'.val) % 8192 = _
  omega

/-- The infimum of `f` over the indices below `k`. -/
def infBelow (k : ℕ) (f : Fin 8192 → EReal) : EReal := (Finset.univ.filter fun m : Fin 8192 => m.val < k).inf f

theorem infBelow_zero (f : Fin 8192 → EReal) : infBelow 0 f = ⊤ := by
  unfold infBelow
  rw [Finset.filter_false_of_mem (fun m _ => Nat.not_lt_zero _), Finset.inf_empty]

theorem infBelow_all (f : Fin 8192 → EReal) : infBelow 8192 f = Finset.univ.inf f := by
  unfold infBelow
  rw [Finset.filter_true_of_mem (fun m _ => m.isLt)]

/-- Taking in block `j`. -/
theorem infBelow_block (f : Fin 8192 → EReal) (j : ℕ) (hj : j < 16) :
    infBelow (512 * (j + 1)) f = min (infBelow (512 * j) f) (Finset.univ.inf fun m' : Fin 512 => f (blk j m')) := by
  unfold infBelow
  apply le_antisymm
  · refine le_min (Finset.inf_mono fun m hm => ?_) (Finset.le_inf fun m' _ => Finset.inf_le ?_)
    · rw [Finset.mem_filter] at hm ⊢; exact ⟨hm.1, by have := hm.2; omega⟩
    · rw [Finset.mem_filter]; exact ⟨Finset.mem_univ _, by rw [blk_val j hj m']; have := m'.isLt; omega⟩
  · refine Finset.le_inf fun m hm => ?_
    rw [Finset.mem_filter] at hm
    by_cases h : m.val < 512 * j
    · exact (min_le_left _ _).trans (Finset.inf_le (Finset.mem_filter.mpr ⟨Finset.mem_univ _, h⟩))
    · have hm' : m.val - 512 * j < 512 := by have := hm.2; omega
      have e : blk j ⟨m.val - 512 * j, hm'⟩ = m := Fin.ext (by rw [blk_val j hj]; show 512 * j + (m.val - 512 * j) = m.val; omega)
      exact (min_le_right _ _).trans ((Finset.inf_le (Finset.mem_univ (⟨m.val - 512 * j, hm'⟩ : Fin 512))).trans_eq (congrArg f e))

end Cert.Chamfer

end
-- ==== Proof.Accumulate0.lean ====
/-
  What the first pass leaves in its result array, at the ideal instance.

  Row `i` of the grid holds query tile `i` fixed and runs over the 16 candidate tiles.  After column `j` the scratch
  holds, at entry `[β, r]`, the infimum over the candidates `m < 512·(j+1)` of the distance between query
  `512·i + r` and candidate `m` (induction along the row: the first column starts from `+∞`, every further
  column takes in one more block of 512 candidates by one `min`).  At the row's last column all 8192 candidates
  are in, and that tile is written back as rows `512·i … 512·i + 511` of the result; the 16 rows' tiles cover the
  result array.  So every entry `[β, n]` of the result is the distance from query `n` to its nearest candidate.
-/
import proofs.«145489_j16003048145308_1_alg».proof.Proof.Carry0
import proofs.«145489_j16003048145308_1_alg».proof.Proof.TileMin
import proofs.«145489_j16003048145308_1_alg».proof.Proof.MinBlocks
import Idealize.ShloMosaic.Lib.Pipeline.Value
import Idealize.ShloMosaic.Lib.ValueIdx

set_option maxRecDepth 16384

noncomputable section

open scoped BigOperators

namespace Cert.KernelIdeal.Pass0

open Cert.KernelIdeal Cert.KernelIdeal.Gen Cert.Chamfer
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The pass's query points and candidate points, as it finds them. -/
abbrev qArr (c : Dev nD) : Vec Ideal S4x8192x3 .f32 := V c main_arg0
abbrev cArr (c : Dev nD) : Vec Ideal S4x8192x3 .f32 := V c main_arg1

/-- The distance from query `n` of batch `β` to candidate `m`. -/
abbrev pairD (c : Dev nD) (β : Fin 4) (n m : Fin 8192) : EReal :=
  dist (fun d => qArr V c (ix3 β n d)) (fun d => cArr V c (ix3 β m d))

/-- The distance from query `n` of batch `β` to its nearest candidate. -/
def rowMin (c : Dev nD) (β : Fin 4) (n : Fin 8192) : EReal := Finset.univ.inf fun m : Fin 8192 => pairD V c β n m

/-- The result array: at `[β, n]` the nearest-candidate distance of query `n`. -/
def result (c : Dev nD) : S4x8192.Idx → EReal := fun j => rowMin V c (j 0) (j 1)

/-! ## The index maps over the grid -/

/-- Point `t` is row `t / 16`, column `t % 16`: the query tile and the result tile follow the row, the candidate
    tile the column; no window moves along the batch or the coordinate axis. -/
theorem idx_facts : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16 :=
  (by decide +kernel : ∀ t : Fin grid0.N, _)

theorem lt_N (t : Fin cfg0.N) : t.val < 256 := lt_of_lt_of_eq t.isLt (show cfg0.N = 256 from N_0)

/-- The query tile at point `t` is rows `512·(t/16) …` of the query array, -/
theorem tile_a_apply (c : Dev nD) (t : Fin cfg0.N) (β : Fin 4) (r : Fin 512) (d : Fin 3) :
    tile V c 0 t (ix3 β r d) = qArr V c (ix3 β (blk (t.val / 16) r) d) := by
  unfold tile
  show V c main_arg0 (((cfg0.win 0).blk t).view.emb (ix3 β r d)) = V c main_arg0 (ix3 β (blk (t.val / 16) r) d)
  refine congrArg (V c main_arg0) ?_
  obtain ⟨e0, e1, e2, -⟩ := idx_facts t
  have hN := lt_N t
  have hb := blk_val (t.val / 16) (by omega) r
  funext a; apply Fin.ext
  match a with
  | ⟨0, _⟩ => show win0_0.index t (0 : Fin 3) * 4 + 1 * β.val = β.val; omega
  | ⟨1, _⟩ => show win0_0.index t (1 : Fin 3) * 512 + 1 * r.val = (blk (t.val / 16) r).val; omega
  | ⟨2, _⟩ => show win0_0.index t (2 : Fin 3) * 3 + 1 * d.val = d.val; omega

/-- and the candidate tile rows `512·(t%16) …` of the candidate array. -/
theorem tile_b_apply (c : Dev nD) (t : Fin cfg0.N) (β : Fin 4) (r : Fin 512) (d : Fin 3) :
    tile V c 1 t (ix3 β r d) = cArr V c (ix3 β (blk (t.val % 16) r) d) := by
  unfold tile
  show V c main_arg1 (((cfg0.win 1).blk t).view.emb (ix3 β r d)) = V c main_arg1 (ix3 β (blk (t.val % 16) r) d)
  refine congrArg (V c main_arg1) ?_
  obtain ⟨-, -, -, e0, e1, e2, -⟩ := idx_facts t
  have hb := blk_val (t.val % 16) (Nat.mod_lt _ (by norm_num)) r
  funext a; apply Fin.ext
  match a with
  | ⟨0, _⟩ => show win0_1.index t (0 : Fin 3) * 4 + 1 * β.val = β.val; omega
  | ⟨1, _⟩ => show win0_1.index t (1 : Fin 3) * 512 + 1 * r.val = (blk (t.val % 16) r).val; omega
  | ⟨2, _⟩ => show win0_1.index t (2 : Fin 3) * 3 + 1 * d.val = d.val; omega

/-- One scratch update at point `t`, entry `[β, r]`: the old entry against the infimum over candidate block `t % 16`. -/
theorem step_at (c : Dev nD) (t : Fin cfg0.N) (s : Vec Ideal S4x512 .f32) (β : Fin 4) (r : Fin 512) :
    step (tile V c 0 t) (tile V c 1 t) s (ix2 β r)
      = min (s (ix2 β r)) (Finset.univ.inf fun m' : Fin 512 => pairD V c β (blk (t.val / 16) r) (blk (t.val % 16) m')) := by
  refine (TileValue.step_apply (tile V c 0 t) (tile V c 1 t) s β r).trans ?_
  simp only [nearest, tile_a_apply, tile_b_apply]

/-! ## The running minimum along a row -/

/-- After the point at position `n` the scratch holds, at `[β, r]`, the infimum over the candidates below
    `512·(n % 16 + 1)` of the distance from query `512·(n / 16) + r`. -/
theorem carry_apply (c : Dev nD) : ∀ (n : ℕ) (hn : n < cfg0.N) (β : Fin 4) (r : Fin 512),
    carry V c n hn (ix2 β r) = infBelow (512 * (n % 16 + 1)) (fun m => pairD V c β (blk (n / 16) r) m)
  | 0, hn, β, r => by
    rw [carry_first V c ⟨0, hn⟩ rfl, step_at V c ⟨0, hn⟩]
    rw [show (top : Vec Ideal S4x512 .f32) (ix2 β r) = ⊤ from TileValue.top_apply _]
    show min ⊤ (Finset.univ.inf fun m' : Fin 512 => pairD V c β (blk (0 / 16) r) (blk (0 % 16) m')) = infBelow (512 * (0 % 16 + 1)) _
    rw [show (0 % 16 : ℕ) = 0 from rfl, infBelow_block _ 0 (by norm_num), Nat.mul_zero, infBelow_zero]
  | n + 1, hn, β, r => by
    by_cases h : (n + 1) % 16 = 0
    · rw [carry_first V c ⟨n + 1, hn⟩ h, step_at V c ⟨n + 1, hn⟩]
      rw [show (top : Vec Ideal S4x512 .f32) (ix2 β r) = ⊤ from TileValue.top_apply _]
      show min ⊤ (Finset.univ.inf fun m' : Fin 512 => pairD V c β (blk ((n + 1) / 16) r) (blk ((n + 1) % 16) m')) = infBelow (512 * ((n + 1) % 16 + 1)) _
      rw [h, infBelow_block _ 0 (by norm_num), Nat.mul_zero, infBelow_zero]
    · have e : carry V c (n + 1) hn = step (tile V c 0 ⟨n + 1, hn⟩) (tile V c 1 ⟨n + 1, hn⟩) (carry V c n (Nat.lt_of_succ_lt hn)) := by
        rw [carry, if_neg h]
      rw [e, step_at V c ⟨n + 1, hn⟩, carry_apply c n (Nat.lt_of_succ_lt hn) β r]
      have e1 : n / 16 = (n + 1) / 16 := by omega
      have e2 : n % 16 + 1 = (n + 1) % 16 := by omega
      show min (infBelow (512 * (n % 16 + 1)) fun m => pairD V c β (blk (n / 16) r) m)
          (Finset.univ.inf fun m' : Fin 512 => pairD V c β (blk ((n + 1) / 16) r) (blk ((n + 1) % 16) m')) = _
      rw [e1, e2]
      exact (infBelow_block _ ((n + 1) % 16) (Nat.mod_lt _ (by norm_num))).symm

/-! ## From the rows' tiles to the array -/

/-- What a row's last point writes back is that row's tile of `result`. -/
theorem flushed_eq (c : Dev nD) (t : Fin cfg0.N) (hf : (cfg0.win 2).flush t = true) :
    (dat V c).flushed 2 t = ((cfg0.win 2).blk t).view.read (Elt Ideal) (result V c) := by
  have ht : t.val % 16 = 15 := (flush0_2 t).mp hf
  show (cfg0.win 2).cut (grid0.coords t) ((dat V c).after 2 t) = _
  rw [after_out]
  funext y
  obtain ⟨β, r, rfl⟩ : ∃ (β : Fin 4) (r : Fin 512), y = ix2 β r := ⟨y 0, y 1, eq_ix2 y⟩
  show carry V c t.val t.isLt (ix2 β r) = result V c (((cfg0.win 2).blk t).view.emb (ix2 β r))
  have he : ((cfg0.win 2).blk t).view.emb (ix2 β r) = ix2 β (blk (t.val / 16) r) := by
    obtain ⟨-, -, -, -, -, -, e0, e1⟩ := idx_facts t
    have hN := lt_N t
    have hb := blk_val (t.val / 16) (by omega) r
    funext a; apply Fin.ext
    match a with
    | ⟨0, _⟩ => show win0_2.index t (0 : Fin 2) * 4 + 1 * β.val = β.val; omega
    | ⟨1, _⟩ => show win0_2.index t (1 : Fin 2) * 512 + 1 * r.val = (blk (t.val / 16) r).val; omega
  rw [he, carry_apply V c t.val t.isLt β r, ht]
  show infBelow 8192 _ = rowMin V c β (blk (t.val / 16) r)
  rw [infBelow_all]; rfl

/-- An index of the result is in point `t`'s tile iff each coordinate is in the tile's range on its axis. -/
theorem mem_blk (t : Fin cfg0.N) (i : S4x8192.Idx) :
    i ∈ ((cfg0.win 2).blk t).view.set ↔ ∀ a : Fin 2, win0_2.index t a * S4x512.size a ≤ (i a).val ∧ (i a).val < win0_2.index t a * S4x512.size a + S4x512.size a := by
  show i ∈ ((View.whole main_v0).slice (win0_2.rect t)).set ↔ _
  rw [View.set_slice_whole, Rect.mem_set_unit]
  exact Iff.rfl

/-- Every entry of the result lies in the tile some row's last point writes back. -/
theorem cover (i : S4x8192.Idx) : ∃ t : Fin cfg0.N, (cfg0.win 2).flush t = true ∧ i ∈ ((cfg0.win 2).blk t).view.set := by
  have hi0 : (i 0).val < 4 := (i 0).isLt
  have hi1 : (i 1).val < 8192 := (i 1).isLt
  have hlt : 16 * ((i 1).val / 512) + 15 < cfg0.N := by rw [show cfg0.N = 256 from N_0]; omega
  refine ⟨⟨16 * ((i 1).val / 512) + 15, hlt⟩, (flush0_2 _).mpr (by show (16 * ((i 1).val / 512) + 15) % 16 = 15; omega), ?_⟩
  rw [mem_blk]
  obtain ⟨-, -, -, -, -, -, e0, e1⟩ := idx_facts ⟨16 * ((i 1).val / 512) + 15, hlt⟩
  have e1' : win0_2.index ⟨16 * ((i 1).val / 512) + 15, hlt⟩ (1 : Fin 2) = (16 * ((i 1).val / 512) + 15) / 16 := e1
  intro a
  match a with
  | ⟨0, _⟩ => show win0_2.index _ (0 : Fin 2) * 4 ≤ (i 0).val ∧ (i 0).val < win0_2.index _ (0 : Fin 2) * 4 + 4; omega
  | ⟨1, _⟩ => show win0_2.index _ (1 : Fin 2) * 512 ≤ (i 1).val ∧ (i 1).val < win0_2.index _ (1 : Fin 2) * 512 + 512; omega

/-- THE RESULT ARRAY after the pass. -/
theorem final (c : Dev nD) : (dat V c).arrAt 2 cfg0.N = result V c :=
  (dat V c).arrAt_eq_of_cover 2 (result V c) (fun t hf => flushed_eq V c t hf) cover

end Cert.KernelIdeal.Pass0

end
-- ==== Proof.Accumulate1.lean ====
/-
  What the second pass leaves in its result array, at the ideal instance.

  Row `i` of the grid holds query tile `i` fixed and runs over the 16 candidate tiles.  After column `j` the scratch
  holds, at entry `[β, r]`, the infimum over the candidates `m < 512·(j+1)` of the distance between query
  `512·i + r` and candidate `m` (induction along the row: the first column starts from `+∞`, every further
  column takes in one more block of 512 candidates by one `min`).  At the row's last column all 8192 candidates
  are in, and that tile is written back as rows `512·i … 512·i + 511` of the result; the 16 rows' tiles cover the
  result array.  So every entry `[β, n]` of the result is the distance from query `n` to its nearest candidate.
-/
import proofs.«145489_j16003048145308_1_alg».proof.Proof.Carry1
import proofs.«145489_j16003048145308_1_alg».proof.Proof.TileMin
import proofs.«145489_j16003048145308_1_alg».proof.Proof.MinBlocks
import Idealize.ShloMosaic.Lib.Pipeline.Value
import Idealize.ShloMosaic.Lib.ValueIdx

set_option maxRecDepth 16384

noncomputable section

open scoped BigOperators

namespace Cert.KernelIdeal.Pass1

open Cert.KernelIdeal Cert.KernelIdeal.Gen Cert.Chamfer
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The pass's query points and candidate points, as it finds them. -/
abbrev qArr (c : Dev nD) : Vec Ideal S4x8192x3 .f32 := V c main_arg1
abbrev cArr (c : Dev nD) : Vec Ideal S4x8192x3 .f32 := V c main_arg0

/-- The distance from query `n` of batch `β` to candidate `m`. -/
abbrev pairD (c : Dev nD) (β : Fin 4) (n m : Fin 8192) : EReal :=
  dist (fun d => qArr V c (ix3 β n d)) (fun d => cArr V c (ix3 β m d))

/-- The distance from query `n` of batch `β` to its nearest candidate. -/
def rowMin (c : Dev nD) (β : Fin 4) (n : Fin 8192) : EReal := Finset.univ.inf fun m : Fin 8192 => pairD V c β n m

/-- The result array: at `[β, n]` the nearest-candidate distance of query `n`. -/
def result (c : Dev nD) : S4x8192.Idx → EReal := fun j => rowMin V c (j 0) (j 1)

/-! ## The index maps over the grid -/

/-- Point `t` is row `t / 16`, column `t % 16`: the query tile and the result tile follow the row, the candidate
    tile the column; no window moves along the batch or the coordinate axis. -/
theorem idx_facts : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 2) = 0 ∧ win1_2.index t (1 : Fin 2) = t.val / 16 :=
  (by decide +kernel : ∀ t : Fin grid1.N, _)

theorem lt_N (t : Fin cfg1.N) : t.val < 256 := lt_of_lt_of_eq t.isLt (show cfg1.N = 256 from N_1)

/-- The query tile at point `t` is rows `512·(t/16) …` of the query array, -/
theorem tile_a_apply (c : Dev nD) (t : Fin cfg1.N) (β : Fin 4) (r : Fin 512) (d : Fin 3) :
    tile V c 0 t (ix3 β r d) = qArr V c (ix3 β (blk (t.val / 16) r) d) := by
  unfold tile
  show V c main_arg1 (((cfg1.win 0).blk t).view.emb (ix3 β r d)) = V c main_arg1 (ix3 β (blk (t.val / 16) r) d)
  refine congrArg (V c main_arg1) ?_
  obtain ⟨e0, e1, e2, -⟩ := idx_facts t
  have hN := lt_N t
  have hb := blk_val (t.val / 16) (by omega) r
  funext a; apply Fin.ext
  match a with
  | ⟨0, _⟩ => show win1_0.index t (0 : Fin 3) * 4 + 1 * β.val = β.val; omega
  | ⟨1, _⟩ => show win1_0.index t (1 : Fin 3) * 512 + 1 * r.val = (blk (t.val / 16) r).val; omega
  | ⟨2, _⟩ => show win1_0.index t (2 : Fin 3) * 3 + 1 * d.val = d.val; omega

/-- and the candidate tile rows `512·(t%16) …` of the candidate array. -/
theorem tile_b_apply (c : Dev nD) (t : Fin cfg1.N) (β : Fin 4) (r : Fin 512) (d : Fin 3) :
    tile V c 1 t (ix3 β r d) = cArr V c (ix3 β (blk (t.val % 16) r) d) := by
  unfold tile
  show V c main_arg0 (((cfg1.win 1).blk t).view.emb (ix3 β r d)) = V c main_arg0 (ix3 β (blk (t.val % 16) r) d)
  refine congrArg (V c main_arg0) ?_
  obtain ⟨-, -, -, e0, e1, e2, -⟩ := idx_facts t
  have hb := blk_val (t.val % 16) (Nat.mod_lt _ (by norm_num)) r
  funext a; apply Fin.ext
  match a with
  | ⟨0, _⟩ => show win1_1.index t (0 : Fin 3) * 4 + 1 * β.val = β.val; omega
  | ⟨1, _⟩ => show win1_1.index t (1 : Fin 3) * 512 + 1 * r.val = (blk (t.val % 16) r).val; omega
  | ⟨2, _⟩ => show win1_1.index t (2 : Fin 3) * 3 + 1 * d.val = d.val; omega

/-- One scratch update at point `t`, entry `[β, r]`: the old entry against the infimum over candidate block `t % 16`. -/
theorem step_at (c : Dev nD) (t : Fin cfg1.N) (s : Vec Ideal S4x512 .f32) (β : Fin 4) (r : Fin 512) :
    step (tile V c 0 t) (tile V c 1 t) s (ix2 β r)
      = min (s (ix2 β r)) (Finset.univ.inf fun m' : Fin 512 => pairD V c β (blk (t.val / 16) r) (blk (t.val % 16) m')) := by
  refine (TileValue.step_apply (tile V c 0 t) (tile V c 1 t) s β r).trans ?_
  simp only [nearest, tile_a_apply, tile_b_apply]

/-! ## The running minimum along a row -/

/-- After the point at position `n` the scratch holds, at `[β, r]`, the infimum over the candidates below
    `512·(n % 16 + 1)` of the distance from query `512·(n / 16) + r`. -/
theorem carry_apply (c : Dev nD) : ∀ (n : ℕ) (hn : n < cfg1.N) (β : Fin 4) (r : Fin 512),
    carry V c n hn (ix2 β r) = infBelow (512 * (n % 16 + 1)) (fun m => pairD V c β (blk (n / 16) r) m)
  | 0, hn, β, r => by
    rw [carry_first V c ⟨0, hn⟩ rfl, step_at V c ⟨0, hn⟩]
    rw [show (top : Vec Ideal S4x512 .f32) (ix2 β r) = ⊤ from TileValue.top_apply _]
    show min ⊤ (Finset.univ.inf fun m' : Fin 512 => pairD V c β (blk (0 / 16) r) (blk (0 % 16) m')) = infBelow (512 * (0 % 16 + 1)) _
    rw [show (0 % 16 : ℕ) = 0 from rfl, infBelow_block _ 0 (by norm_num), Nat.mul_zero, infBelow_zero]
  | n + 1, hn, β, r => by
    by_cases h : (n + 1) % 16 = 0
    · rw [carry_first V c ⟨n + 1, hn⟩ h, step_at V c ⟨n + 1, hn⟩]
      rw [show (top : Vec Ideal S4x512 .f32) (ix2 β r) = ⊤ from TileValue.top_apply _]
      show min ⊤ (Finset.univ.inf fun m' : Fin 512 => pairD V c β (blk ((n + 1) / 16) r) (blk ((n + 1) % 16) m')) = infBelow (512 * ((n + 1) % 16 + 1)) _
      rw [h, infBelow_block _ 0 (by norm_num), Nat.mul_zero, infBelow_zero]
    · have e : carry V c (n + 1) hn = step (tile V c 0 ⟨n + 1, hn⟩) (tile V c 1 ⟨n + 1, hn⟩) (carry V c n (Nat.lt_of_succ_lt hn)) := by
        rw [carry, if_neg h]
      rw [e, step_at V c ⟨n + 1, hn⟩, carry_apply c n (Nat.lt_of_succ_lt hn) β r]
      have e1 : n / 16 = (n + 1) / 16 := by omega
      have e2 : n % 16 + 1 = (n + 1) % 16 := by omega
      show min (infBelow (512 * (n % 16 + 1)) fun m => pairD V c β (blk (n / 16) r) m)
          (Finset.univ.inf fun m' : Fin 512 => pairD V c β (blk ((n + 1) / 16) r) (blk ((n + 1) % 16) m')) = _
      rw [e1, e2]
      exact (infBelow_block _ ((n + 1) % 16) (Nat.mod_lt _ (by norm_num))).symm

/-! ## From the rows' tiles to the array -/

/-- What a row's last point writes back is that row's tile of `result`. -/
theorem flushed_eq (c : Dev nD) (t : Fin cfg1.N) (hf : (cfg1.win 2).flush t = true) :
    (dat V c).flushed 2 t = ((cfg1.win 2).blk t).view.read (Elt Ideal) (result V c) := by
  have ht : t.val % 16 = 15 := (flush1_2 t).mp hf
  show (cfg1.win 2).cut (grid1.coords t) ((dat V c).after 2 t) = _
  rw [after_out]
  funext y
  obtain ⟨β, r, rfl⟩ : ∃ (β : Fin 4) (r : Fin 512), y = ix2 β r := ⟨y 0, y 1, eq_ix2 y⟩
  show carry V c t.val t.isLt (ix2 β r) = result V c (((cfg1.win 2).blk t).view.emb (ix2 β r))
  have he : ((cfg1.win 2).blk t).view.emb (ix2 β r) = ix2 β (blk (t.val / 16) r) := by
    obtain ⟨-, -, -, -, -, -, e0, e1⟩ := idx_facts t
    have hN := lt_N t
    have hb := blk_val (t.val / 16) (by omega) r
    funext a; apply Fin.ext
    match a with
    | ⟨0, _⟩ => show win1_2.index t (0 : Fin 2) * 4 + 1 * β.val = β.val; omega
    | ⟨1, _⟩ => show win1_2.index t (1 : Fin 2) * 512 + 1 * r.val = (blk (t.val / 16) r).val; omega
  rw [he, carry_apply V c t.val t.isLt β r, ht]
  show infBelow 8192 _ = rowMin V c β (blk (t.val / 16) r)
  rw [infBelow_all]; rfl

/-- An index of the result is in point `t`'s tile iff each coordinate is in the tile's range on its axis. -/
theorem mem_blk (t : Fin cfg1.N) (i : S4x8192.Idx) :
    i ∈ ((cfg1.win 2).blk t).view.set ↔ ∀ a : Fin 2, win1_2.index t a * S4x512.size a ≤ (i a).val ∧ (i a).val < win1_2.index t a * S4x512.size a + S4x512.size a := by
  show i ∈ ((View.whole main_v1).slice (win1_2.rect t)).set ↔ _
  rw [View.set_slice_whole, Rect.mem_set_unit]
  exact Iff.rfl

/-- Every entry of the result lies in the tile some row's last point writes back. -/
theorem cover (i : S4x8192.Idx) : ∃ t : Fin cfg1.N, (cfg1.win 2).flush t = true ∧ i ∈ ((cfg1.win 2).blk t).view.set := by
  have hi0 : (i 0).val < 4 := (i 0).isLt
  have hi1 : (i 1).val < 8192 := (i 1).isLt
  have hlt : 16 * ((i 1).val / 512) + 15 < cfg1.N := by rw [show cfg1.N = 256 from N_1]; omega
  refine ⟨⟨16 * ((i 1).val / 512) + 15, hlt⟩, (flush1_2 _).mpr (by show (16 * ((i 1).val / 512) + 15) % 16 = 15; omega), ?_⟩
  rw [mem_blk]
  obtain ⟨-, -, -, -, -, -, e0, e1⟩ := idx_facts ⟨16 * ((i 1).val / 512) + 15, hlt⟩
  have e1' : win1_2.index ⟨16 * ((i 1).val / 512) + 15, hlt⟩ (1 : Fin 2) = (16 * ((i 1).val / 512) + 15) / 16 := e1
  intro a
  match a with
  | ⟨0, _⟩ => show win1_2.index _ (0 : Fin 2) * 4 ≤ (i 0).val ∧ (i 0).val < win1_2.index _ (0 : Fin 2) * 4 + 4; omega
  | ⟨1, _⟩ => show win1_2.index _ (1 : Fin 2) * 512 ≤ (i 1).val ∧ (i 1).val < win1_2.index _ (1 : Fin 2) * 512 + 512; omega

/-- THE RESULT ARRAY after the pass. -/
theorem final (c : Dev nD) : (dat V c).arrAt 2 cfg1.N = result V c :=
  (dat V c).arrAt_eq_of_cover 2 (result V c) (fun t hf => flushed_eq V c t hf) cover

end Cert.KernelIdeal.Pass1

end
-- ==== Proof.RefMin.lean ====
/-
  The reference's two nearest-neighbour tables, read at one entry.

  The reference builds the full 4 × 8192 × 8192 table of distances `dist(x0[β,n,·], x1[β,m,·])` (row sums of
  squares broadcast along rows and columns, the batched product by `dot_general`, `max(·, 0)`, the square root)
  and reduces it with `min` from `+∞` once along `m` (nearest candidate of each query) and once along `n`
  (nearest query of each candidate).  The generated reader gives every operation of the table at an index; the two
  `min` reductions are folds over an axis, read here as `Finset.inf`.
-/
import proofs.«145489_j16003048145308_1_alg».proof.Proof.Gen.ReferenceIdeal.Read
import proofs.«145489_j16003048145308_1_alg».proof.Proof.PairDist
import Idealize.ShloMosaic.PureOps.Ideal.Laws
import Idealize.ShloMosaic.PureOps.Reduce
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-- The row norm's operand index under the two broadcasts is the query point's coordinate. -/
private theorem idx_row (β : Fin 4) (n m : Fin 8192) (k : Fin 3) :
    idx_main_v1 (idx_main_v5 (idx_main_v7 (ix3 β n m))) k = ix3 β n k := by
  funext a; match a with | ⟨0, _⟩ => rfl | ⟨1, _⟩ => rfl | ⟨2, _⟩ => rfl

/-- The column norm's operand index under the two broadcasts is the candidate point's coordinate. -/
private theorem idx_col (β : Fin 4) (n m : Fin 8192) (k : Fin 3) :
    idx_main_v3 (idx_main_v6 (idx_main_v8 (ix3 β n m))) k = ix3 β m k := by
  funext a; match a with | ⟨0, _⟩ => rfl | ⟨1, _⟩ => rfl | ⟨2, _⟩ => rfl

/-- The product's left operand is read at the query point. -/
private theorem lidx_eq (β : Fin 4) (n m : Fin 8192) (k : Fin 3) :
    lidx_main_v4 (ix3 β n m) k = ix3 β n k := by
  funext a; match a with | ⟨0, _⟩ => rfl | ⟨1, _⟩ => rfl | ⟨2, _⟩ => rfl

/-- The product's right operand is read at the candidate point. -/
private theorem ridx_eq (β : Fin 4) (n m : Fin 8192) (k : Fin 3) :
    ridx_main_v4 (ix3 β n m) k = ix3 β m k := by
  funext a; match a with | ⟨0, _⟩ => rfl | ⟨1, _⟩ => rfl | ⟨2, _⟩ => rfl

/-- One entry of the reference's distance table. -/
theorem table_apply (x0 x1 : (⟨S4x8192x3, .f32⟩ : BufTy).Contents (Elt Ideal)) (β : Fin 4) (n m : Fin 8192) :
    val_main_v15 (F := Ideal) x0 x1 (ix3 β n m) = Cert.Chamfer.dist (fun d => x0 (ix3 β n d)) (fun d => x1 (ix3 β m d)) := by
  rw [val_main_v15_apply, val_main_v14_apply, val_main_v12_apply, val_main_v9_apply, val_main_v7_apply,
    val_main_v5_apply, val_main_v1_apply, val_main_v8_apply, val_main_v6_apply, val_main_v3_apply,
    val_main_v11_apply, val_main_v10_apply, val_main_v4_apply, val_main_v13_apply, val_main_cst_apply,
    val_main_cst_0_apply, val_main_cst_1_apply, val_main_cst_2_apply]
  simp only [val_main_v0_apply, val_main_v2_apply, idx_row, idx_col, lidx_eq, ridx_eq]
  simp only [Ideal.hostUnary_sqrt_def, Ideal.maximumf_def, Ideal.subf_def, Ideal.addf_def, Ideal.mulf_def,
    Ideal.ofBits_def, Ideal.ofBits_zero_f32, zero_add]
  rfl

/-- A fold of `min` from `+∞` over a finite set is the infimum over that set. -/
private theorem fold_min_top {ι : Type} (s : Finset ι) (f : ι → EReal) :
    s.fold (FloatOps.minimumf (F := Ideal) (φ := .f32)) (⊤ : EReal) f = s.inf f := by
  induction s using Finset.cons_induction with
  | empty => rw [Finset.fold_empty, Finset.inf_empty]
  | cons a s ha ih => rw [Finset.fold_cons, Finset.inf_cons, ih]; rfl

/-- The word of `+∞` reads as the top of the extended reals. -/
private theorem ofBits_pinf : Ideal.ofBits .f32 0x7F800000#32 = (⊤ : EReal) := by
  simp [Ideal.ofBits, Ideal.ieee]

/-- A result index of the reduction along the candidates, with the candidate `k` put back, is (β, n, k). -/
private theorem lift_rows (h : S4x8192x8192.Reduces [2] S4x8192) (β : Fin 4) (n : Fin 8192)
    (k : Fin (S4x8192x8192.size 2)) : h.lift (ix2 β n) k = ix3 β n (⟨k.val, k.isLt⟩ : Fin 8192) := by
  funext c; apply Fin.ext
  match c with | ⟨0, _⟩ => rfl | ⟨1, _⟩ => rfl | ⟨2, _⟩ => rfl

/-- A result index of the reduction along the queries, with the query `k` put back, is (β, k, m). -/
private theorem lift_cols (h : S4x8192x8192.Reduces [1] S4x8192) (β : Fin 4) (m : Fin 8192)
    (k : Fin (S4x8192x8192.size 1)) : h.lift (ix2 β m) k = ix3 β (⟨k.val, k.isLt⟩ : Fin 8192) m := by
  funext c; apply Fin.ext
  match c with | ⟨0, _⟩ => rfl | ⟨1, _⟩ => rfl | ⟨2, _⟩ => rfl

/-- Reduced along the candidates: for query `n` of batch `β` the distance to its nearest candidate. -/
theorem nearest_rows (x0 x1 : (⟨S4x8192x3, .f32⟩ : BufTy).Contents (Elt Ideal)) (β : Fin 4) (n : Fin 8192) :
    val_main_v16 (F := Ideal) x0 x1 (ix2 β n)
      = Finset.univ.inf fun m : Fin 8192 => Cert.Chamfer.dist (fun d => x0 (ix3 β n d)) (fun d => x1 (ix3 β m d)) := by
  have h : S4x8192x8192.Reduces [2] S4x8192 := by decide
  unfold val_main_v16
  rw [Host.reduce_eq_fold_single FloatOps.minimumf _ _ reducesTo_S4x8192x8192_S4x8192_d2 h h_S_,
    val_main_cst_3_apply, Ideal.ofBits_def, ofBits_pinf]
  have hf : (val_main_v15 (F := Ideal) x0 x1 ∘ h.lift (ix2 β n))
      = fun m : Fin 8192 => Cert.Chamfer.dist (fun d => x0 (ix3 β n d)) (fun d => x1 (ix3 β m d)) :=
    funext fun k => by
      show val_main_v15 (F := Ideal) x0 x1 (h.lift (ix2 β n) k) = _
      rw [lift_rows h β n k]
      exact table_apply x0 x1 β n ⟨k.val, k.isLt⟩
  rw [hf]
  exact fold_min_top _ _

/-- Reduced along the queries: for candidate `m` of batch `β` the distance to its nearest query. -/
theorem nearest_cols (x0 x1 : (⟨S4x8192x3, .f32⟩ : BufTy).Contents (Elt Ideal)) (β : Fin 4) (m : Fin 8192) :
    val_main_v17 (F := Ideal) x0 x1 (ix2 β m)
      = Finset.univ.inf fun n : Fin 8192 => Cert.Chamfer.dist (fun d => x0 (ix3 β n d)) (fun d => x1 (ix3 β m d)) := by
  have h : S4x8192x8192.Reduces [1] S4x8192 := by decide
  unfold val_main_v17
  rw [Host.reduce_eq_fold_single FloatOps.minimumf _ _ reducesTo_S4x8192x8192_S4x8192_d1 h h_S_,
    val_main_cst_4_apply, Ideal.ofBits_def, ofBits_pinf]
  have hf : (val_main_v15 (F := Ideal) x0 x1 ∘ h.lift (ix2 β m))
      = fun n : Fin 8192 => Cert.Chamfer.dist (fun d => x0 (ix3 β n d)) (fun d => x1 (ix3 β m d)) :=
    funext fun k => by
      show val_main_v15 (F := Ideal) x0 x1 (h.lift (ix2 β m) k) = _
      rw [lift_cols h β m k]
      exact table_apply x0 x1 β ⟨k.val, k.isLt⟩ m
  rw [hf]
  exact fold_min_top _ _

end Cert.ReferenceIdeal.RefValue

end
-- ==== Proof.Result.lean ====
/-
  The two programs compute one number.

  Kernel side: the program's result is `meansSum r₀ r₁` of the arrays the two passes leave, and (Accumulate0/1)
  `r₀[β, n]` is the distance from point `n` of the first set to its nearest point of the second set, `r₁[β, k]`
  the distance from point `k` of the second set to its nearest point of the first — the latter computed by the
  same kernel with the sets exchanged, hence over `dist q p`.
  Reference side: its result is the same `meansSum` (the same nine host operations) of the two `min` reductions
  of its full distance table (RefMin): along the second set for each point of the first, along the first set for
  each point of the second, both over `dist p q`.
  The first arrays agree entry by entry as they stand; the second after `dist q p = dist p q`.
-/
import proofs.«145489_j16003048145308_1_alg».proof.Proof.Program
import proofs.«145489_j16003048145308_1_alg».proof.Proof.Accumulate0
import proofs.«145489_j16003048145308_1_alg».proof.Proof.Accumulate1
import proofs.«145489_j16003048145308_1_alg».proof.Proof.RefMin
import proofs.«145489_j16003048145308_1_alg».proof.Proof.Gen.ReferenceIdeal.Run
import proofs.«145489_j16003048145308_1_alg».proof.Proof.Gen.ReferenceIdeal.Read

noncomputable section

namespace Cert.Proof.Result

open Idealize.ShloMosaic Idealize.ShloMosaic.TcCoe Idealize.ShloMosaic.ValueIdx Idealize.SL.Sem Cert.Chamfer

variable (m : (ℓ : Loc Cert.KernelIdeal.nD Cert.KernelIdeal.τ Cert.KernelIdeal.sig) → Buf (Elt Ideal) ℓ)

/-- The two point sets as the kernel's program is launched on them. -/
abbrev P1 (c : Dev Cert.KernelIdeal.nD) := m ((c.tc : Thread Cert.KernelIdeal.nD Cert.KernelIdeal.τ).loc Cert.KernelIdeal.main_arg0)
abbrev P2 (c : Dev Cert.KernelIdeal.nD) := m ((c.tc : Thread Cert.KernelIdeal.nD Cert.KernelIdeal.τ).loc Cert.KernelIdeal.main_arg1)

/-- The first pass's array is the reference's reduction along the second set. -/
theorem pass0_eq (c : Dev Cert.KernelIdeal.nD) :
    Cert.KernelIdeal.Pass0.result (Cert.KernelIdeal.Whole.V0 m) c
      = Cert.ReferenceIdeal.Read.val_main_v16 (F := Ideal) (P1 m c) (P2 m c) := by
  funext j
  obtain ⟨β, n, rfl⟩ : ∃ (β : Fin 4) (n : Fin 8192), j = ix2 β n := ⟨j 0, j 1, eq_ix2 j⟩
  rw [Cert.ReferenceIdeal.RefValue.nearest_rows]
  rfl

/-- The second pass's array is the reference's reduction along the first set: the kernel measured each pair from the
    second set's point, the reference from the first's, and the distance is symmetric. -/
theorem pass1_eq (c : Dev Cert.KernelIdeal.nD) :
    Cert.KernelIdeal.Pass1.result (Cert.KernelIdeal.Whole.V1 m) c
      = Cert.ReferenceIdeal.Read.val_main_v17 (F := Ideal) (P1 m c) (P2 m c) := by
  funext j
  obtain ⟨β, k, rfl⟩ : ∃ (β : Fin 4) (k : Fin 8192), j = ix2 β k := ⟨j 0, j 1, eq_ix2 j⟩
  rw [Cert.ReferenceIdeal.RefValue.nearest_cols]
  show (Finset.univ.inf fun n : Fin 8192 => dist (fun d => Cert.KernelIdeal.Whole.V1 m c Cert.KernelIdeal.main_arg1 (ix3 β k d))
      (fun d => Cert.KernelIdeal.Whole.V1 m c Cert.KernelIdeal.main_arg0 (ix3 β n d))) = _
  rw [Cert.KernelIdeal.Whole.V1_main_arg0, Cert.KernelIdeal.Whole.V1_main_arg1]
  exact congrArg (Finset.inf Finset.univ) (funext fun n => dist_comm _ _)

/-- The kernel program's result. -/
theorem kernel_result (c : Dev Cert.KernelIdeal.nD) :
    Cert.KernelIdeal.Whole.W3 (F := Ideal) m c (Proc.devRef .tc Cert.KernelIdeal.main_v6)
      = Cert.KernelIdeal.Whole.meansSum (F := Ideal) (Cert.ReferenceIdeal.Read.val_main_v16 (F := Ideal) (P1 m c) (P2 m c))
          (Cert.ReferenceIdeal.Read.val_main_v17 (F := Ideal) (P1 m c) (P2 m c)) := by
  rw [Cert.KernelIdeal.Whole.W3_main_v6, Cert.KernelIdeal.Whole.W2_main_v0, Cert.KernelIdeal.Whole.W2_main_v1,
    Cert.KernelIdeal.Pass0.final, Cert.KernelIdeal.Pass1.final, pass0_eq, pass1_eq]

/-- The reference's result is the same function of its two reductions (the same host operations, by unfolding). -/
theorem reference_result (x0 x1 : (⟨Cert.ReferenceIdeal.S4x8192x3, .f32⟩ : BufTy).Contents (Elt Ideal)) :
    Cert.ReferenceIdeal.Read.val_main_v22 (F := Ideal) x0 x1
      = Cert.KernelIdeal.Whole.meansSum (F := Ideal) (Cert.ReferenceIdeal.Read.val_main_v16 (F := Ideal) x0 x1)
          (Cert.ReferenceIdeal.Read.val_main_v17 (F := Ideal) x0 x1) := rfl

end Cert.Proof.Result

end
-- ==== Proof.lean ====
/-
  The Chamfer distance of two point sets, tiled, against its direct formula.

  For two sets of 8192 points in ℝ³ (4 batches) the program returns

      mean over the first set of (distance to the nearest point of the second set)
    + mean over the second set of (distance to the nearest point of the first set),

  distances as `√ max(|p|² + |q|² − 2⟨p, q⟩, 0)`.  The reference builds the whole 8192 × 8192 distance table and
  reduces it along each axis.  The kernel never builds the table: one pass per direction, each walking a 16 × 16
  grid of 512 × 512 tiles, keeping per row of tiles a running minimum that starts at +∞, takes in one tile's lane
  minima per column, and is written out at the row's end; the second pass is the first with the two sets exchanged.

  Why they agree over the extended reals: a change of float format is the identity there, the matrix unit's
  product into a zero accumulator is the plain sum of three products, a minimum taken 512 candidates at a time
  from +∞ is the minimum over all of them, and the second pass's `dist q p` is `dist p q` because `+` and `·`
  commute.  Nothing cancels, so the finiteness of the inputs is not used.  The host operations after the passes
  (the two means and their sum) are the same operations on both sides and are carried as one function.

  The three frames: each kernel pass is run point by point with the scratch's contents tracked in the region's
  invariant (Carry0/1 over the control cases of TileRun0/1), the two passes and the host operations are chained as
  segments of @main (Program; the word-level kernel goes the same way, no step of it reading a float's value); the
  reference is a straight line of host operations.  The kernel's idealization rewrote nothing,
  so `preserves` has no conjunct.
-/
import proofs.«145489_j16003048145308_1_alg».proof.Defs
import proofs.«145489_j16003048145308_1_alg».proof.Proof.Gen.Kernel
import proofs.«145489_j16003048145308_1_alg».proof.Proof.Gen.Kernel.Skeleton
import proofs.«145489_j16003048145308_1_alg».proof.Proof.Gen.Kernel.Launch
import proofs.«145489_j16003048145308_1_alg».proof.Proof.Gen.Kernel.Regions
import proofs.«145489_j16003048145308_1_alg».proof.Proof.Gen.Kernel.Points
import proofs.«145489_j16003048145308_1_alg».proof.Proof.Gen.KernelIdeal
import proofs.«145489_j16003048145308_1_alg».proof.Proof.Gen.KernelIdeal.Skeleton
import proofs.«145489_j16003048145308_1_alg».proof.Proof.Gen.KernelIdeal.Launch
import proofs.«145489_j16003048145308_1_alg».proof.Proof.Gen.KernelIdeal.Regions
import proofs.«145489_j16003048145308_1_alg».proof.Proof.Gen.KernelIdeal.Points
import proofs.«145489_j16003048145308_1_alg».proof.Proof.Gen.ReferenceIdeal
import proofs.«145489_j16003048145308_1_alg».proof.Proof.Gen.ReferenceIdeal.Run
import proofs.«145489_j16003048145308_1_alg».proof.Proof.Gen.ReferenceIdeal.Read
import proofs.«145489_j16003048145308_1_alg».proof.Proof.Gen.Pre_finite_inputs
import proofs.«145489_j16003048145308_1_alg».proof.Proof.ProgramBits
import proofs.«145489_j16003048145308_1_alg».proof.Proof.Program
import proofs.«145489_j16003048145308_1_alg».proof.Proof.Result
import Idealize.ShloMosaic.Adequacy
import Idealize.ShloMosaic.Init

noncomputable section

namespace Cert.Proof

open Idealize.ShloMosaic Idealize.ShloMosaic.TcCoe Idealize.SL.Sem

/-- The word-level kernel runs and leaves both point sets as launched: every unscoped buffer ends at the last
    boundary's contents, which hold the arguments unchanged. -/
theorem frame_k : Cert.frame_Kernel := fun m ρ _ =>
  (θ_run (Cert.Kernel.defs (F := Bits)) _ _).mono (fun r h c =>
    ⟨(h c _ (Cert.Kernel.Whole.mem_uc Cert.Kernel.main_arg0 (by decide))).trans (Cert.Kernel.Whole.W3_main_arg0 m c),
      (h c _ (Cert.Kernel.Whole.mem_uc Cert.Kernel.main_arg1 (by decide))).trans (Cert.Kernel.Whole.W3_main_arg1 m c)⟩)
    (Cert.Kernel.Whole.run_all m ρ)

/-- The same of the idealized kernel. -/
theorem frame_ki : Cert.frame_KernelIdeal := fun m ρ _ =>
  (θ_run (Cert.KernelIdeal.defs (F := Ideal)) _ _).mono (fun r h c =>
    ⟨(h c _ (Cert.KernelIdeal.Whole.mem_uc Cert.KernelIdeal.main_arg0 (by decide))).trans (Cert.KernelIdeal.Whole.W3_main_arg0 m c),
      (h c _ (Cert.KernelIdeal.Whole.mem_uc Cert.KernelIdeal.main_arg1 (by decide))).trans (Cert.KernelIdeal.Whole.W3_main_arg1 m c)⟩)
    (Cert.KernelIdeal.Whole.run_all m ρ)

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at `meansSum` of the two nearest-neighbour arrays of the same point sets. -/
theorem algebraic : Cert.algebraic_KernelIdeal_ReferenceIdeal := by
  intro m ρ m' ρ' _ hagree
  refine ⟨fun c => Cert.KernelIdeal.Whole.W3 (F := Ideal) m c (Proc.devRef .tc Cert.KernelIdeal.main_v6), ?_, ?_⟩
  · exact (θ_run (Cert.KernelIdeal.defs (F := Ideal)) _ _).mono (fun r h c =>
      ⟨h c _ (Cert.KernelIdeal.Whole.mem_uc Cert.KernelIdeal.main_v6 (by decide)),
        (h c _ (Cert.KernelIdeal.Whole.mem_uc Cert.KernelIdeal.main_arg0 (by decide))).trans (Cert.KernelIdeal.Whole.W3_main_arg0 m c),
        (h c _ (Cert.KernelIdeal.Whole.mem_uc Cert.KernelIdeal.main_arg1 (by decide))).trans (Cert.KernelIdeal.Whole.W3_main_arg1 m c)⟩)
      (Cert.KernelIdeal.Whole.run_all m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (Cert.ReferenceIdeal.Read.val_main_v22_eq _ _).trans
      ((Cert.Proof.Result.reference_result _ _).trans (Cert.Proof.Result.kernel_result m c).symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
